-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x5 : Shape := ⟨2, ![2000000, 5]⟩
abbrev S2000000 : Shape := ⟨1, ![2000000]⟩
abbrev S_ : Shape := ⟨0, ![]⟩

class Facts : Prop where
  bcast_S_S2000000x5 : S_.BroadcastsInDim S2000000x5 (![] : Fin 0 → Fin S2000000x5.rank)
  reducesTo_S2000000x5_S_d0_1 : S2000000x5.ReducesTo [0, 1] S_
  h_S_ : 0 < S_.numel
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S2000000x5 .f32) (main_arg1 : FVec F S2000000x5 .f32) (main_arg2 : FVec F S2000000 .f32) (main_arg3 : IVec S2000000 32) : IVec S_ 1 :=
  let main_v0 : FVec F S2000000x5 .f32 := Host.absf main_arg0
  let main_cst : FVec F S_ .f32 := constant S_ .f32 0x7F800000#32
  let main_v1 : FVec F S2000000x5 .f32 := broadcastInDim S2000000x5 ![] bcast_S_S2000000x5 main_cst
  let main_v2 : IVec S2000000x5 1 := cmpf .olt main_v0 main_v1
  let main_c : IVec S_ 1 := constantI S_ 1 1#1
  let main_v3 : IVec S_ 1 := (fun x v => Host.reduce IntOp.andi x v reducesTo_S2000000x5_S_d0_1 h_S_) main_v2 main_c
  let main_v4 : FVec F S2000000x5 .f32 := Host.absf main_arg1
  let main_cst_0 : FVec F S_ .f32 := constant S_ .f32 0x7F800000#32
  let main_v5 : FVec F S2000000x5 .f32 := broadcastInDim S2000000x5 ![] bcast_S_S2000000x5 main_cst_0
  let main_v6 : IVec S2000000x5 1 := cmpf .olt main_v4 main_v5
  let main_c_1 : IVec S_ 1 := constantI S_ 1 1#1
  let main_v7 : IVec S_ 1 := (fun x v => Host.reduce IntOp.andi x v reducesTo_S2000000x5_S_d0_1 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  main_v13
-- ==== Kernel.lean ====
abbrev S2000000x5 : Shape := ⟨2, ![2000000, 5]⟩
abbrev S2000000 : Shape := ⟨1, ![2000000]⟩
abbrev S4x500000x5 : Shape := ⟨3, ![4, 500000, 5]⟩
abbrev S500000x4 : Shape := ⟨2, ![500000, 4]⟩
abbrev S1x256 : Shape := ⟨2, ![1, 256]⟩
abbrev S4x1000x5 : Shape := ⟨3, ![4, 1000, 5]⟩
abbrev S1000x4 : Shape := ⟨2, ![1000, 4]⟩
abbrev S4x1000x4 : Shape := ⟨3, ![4, 1000, 4]⟩
abbrev S1000x1 : Shape := ⟨2, ![1000, 1]⟩
abbrev S1000x256 : Shape := ⟨2, ![1000, 256]⟩
abbrev S256 : Shape := ⟨1, ![256]⟩
abbrev S1x250 : Shape := ⟨2, ![1, 250]⟩
abbrev S250 : Shape := ⟨1, ![250]⟩
abbrev S_ : Shape := ⟨0, ![]⟩

abbrev nBuf : Space → Nat
  | .hbm => 24
  | .vmem => 9
  | .smem => 0
  | _ => 0

abbrev bufTy : (tb : Table) → Fin (tcTables nBuf tb) → BufTy
  | .hbm, ⟨0, _⟩ => ⟨S2000000x5, .f32⟩
  | .hbm, ⟨1, _⟩ => ⟨S2000000x5, .f32⟩
  | .hbm, ⟨2, _⟩ => ⟨S2000000, .f32⟩
  | .hbm, ⟨3, _⟩ => ⟨S2000000, .i32⟩
  | .hbm, ⟨4, _⟩ => ⟨S4x500000x5, .f32⟩
  | .hbm, ⟨5, _⟩ => ⟨S4x500000x5, .f32⟩
  | .hbm, ⟨6, _⟩ => ⟨S500000x4, .f32⟩
  | .hbm, ⟨7, _⟩ => ⟨S500000x4, .i32⟩
  | .hbm, ⟨8, _⟩ => ⟨S1x256, .f32⟩
  | .hbm, ⟨9, _⟩ => ⟨S1x250, .f32⟩
  | .hbm, ⟨10, _⟩ => ⟨S250, .f32⟩
  | .hbm, ⟨11, _⟩ => ⟨S_, .f32⟩
  | .hbm, ⟨12, _⟩ => ⟨S_, .f32⟩
  | .hbm, ⟨13, _⟩ => ⟨S250, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S4x1000x5, .f32⟩
  | .local _ .vmem, ⟨1, _⟩ => ⟨S4x1000x5, .f32⟩
  | .local _ .vmem, ⟨2, _⟩ => ⟨S4x1000x5, .f32⟩
  | .local _ .vmem, ⟨3, _⟩ => ⟨S4x1000x5, .f32⟩
  | .local _ .vmem, ⟨4, _⟩ => ⟨S1000x4, .f32⟩
  | .local _ .vmem, ⟨5, _⟩ => ⟨S1000x4, .f32⟩
  | .local _ .vmem, ⟨6, _⟩ => ⟨S1000x4, .i32⟩
  | .local _ .vmem, ⟨7, _⟩ => ⟨S1000x4, .i32⟩
  | .local _ .vmem, ⟨8, _⟩ => ⟨S1x256, .f32⟩
  | _, _ => ⟨S2000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![500], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S2000000x5_S4x500000x5 : S2000000x5.ShapeCasts S4x500000x5
  shapeCasts_S2000000_S500000x4 : S2000000.ShapeCasts S500000x4
  inb_S1x256_S1x256_0_0 : ∀ a, (![0, 0] : Fin 2 → Nat) a + S1x256.size a ≤ S1x256.size a
  h_S1x256 : 0 < S1x256.numel
  inb_S4x1000x5_S4x1000x5_0_0_0 : ∀ a, (![0, 0, 0] : Fin 3 → Nat) a + S4x1000x5.size a ≤ S4x1000x5.size a
  h_S4x1000x5 : 0 < S4x1000x5.numel
  shapeCasts_S4x1000x5_S4x1000x5 : S4x1000x5.ShapeCasts S4x1000x5
  slices_S4x1000x5_o0_0_0_S4x1000x4 : S4x1000x5.Slices ![0, 0, 0] S4x1000x4
  reduces_S4x1000x4_S1000x4 : S4x1000x4.Reduces [0] S1000x4
  inb_S1000x4_S1000x4_0_0 : ∀ a, (![0, 0] : Fin 2 → Nat) a + S1000x4.size a ≤ S1000x4.size a
  h_S1000x4 : 0 < S1000x4.numel
  shapeCasts_S1000x4_S1000x4 : S1000x4.ShapeCasts S1000x4
  iota_S1x256_d1_w32 : S1x256.Iotas .tc 32 [1]
  slices_S1000x4_o0_0_S1000x1 : S1000x4.Slices ![0, 0] S1000x1
  broadcasts_S1000x1_S1000x256 : S1000x1.Broadcasts S1000x256
  broadcasts_S1x256_S1000x256 : S1x256.Broadcasts S1000x256
  natLt_1_32 : 1 < 32
  reduces_S1000x256_S256 : S1000x256.Reduces [0] S256
  shapeCasts_S256_S1x256 : S256.ShapeCasts S1x256
  slices_S1000x4_o0_1_S1000x1 : S1000x4.Slices ![0, 1] S1000x1
  slices_S1000x4_o0_2_S1000x1 : S1000x4.Slices ![0, 2] S1000x1
  slices_S1000x4_o0_3_S1000x1 : S1000x4.Slices ![0, 3] S1000x1
  shapeCasts_S1x256_S1x256 : S1x256.ShapeCasts S1x256
  slices_S1x256_S1x250_0_0 : S1x256.Slices ![0, 0] S1x250
  shapeCasts_S1x250_S250 : S1x250.ShapeCasts S250
  reducesTo_S250_S_d0 : S250.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1000x5.size a ≤ S4x500000x5.size a
  hwx0_0 : ∀ i : grid0.Coords, EltTy.bits .f32 = 32 ∨ (Rect.block (s := S4x500000x5) S4x1000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1000x5.size a ≤ S4x500000x5.size a
  hwx0_1 : ∀ i : grid0.Coords, EltTy.bits .f32 = 32 ∨ (Rect.block (s := S4x500000x5) S4x1000x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x4.size a ≤ S500000x4.size a
  hwx0_2 : ∀ i : grid0.Coords, EltTy.bits .f32 = 32 ∨ (Rect.block (s := S500000x4) S1000x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x4.size a ≤ S500000x4.size a
  hwx0_3 : ∀ i : grid0.Coords, EltTy.bits .i32 = 32 ∨ (Rect.block (s := S500000x4) S1000x4.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)

variable [Facts₀]

abbrev win0_0 : Pipeline.Window sig grid0 :=
  Pipeline.Window.ofSpec (Memref.whole main_v0) S4x1000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x1000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1000x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000x5 : Shape := ⟨2, ![2000000, 5]⟩
abbrev S2000000 : Shape := ⟨1, ![2000000]⟩
abbrev S4 : Shape := ⟨1, ![4]⟩
abbrev S_ : Shape := ⟨0, ![]⟩
abbrev S4x1 : Shape := ⟨2, ![4, 1]⟩
abbrev S2000000x4 : Shape := ⟨2, ![2000000, 4]⟩
abbrev S8000000 : Shape := ⟨1, ![8000000]⟩
abbrev S1x2000000 : Shape := ⟨2, ![1, 2000000]⟩
abbrev S4x2000000 : Shape := ⟨2, ![4, 2000000]⟩
abbrev S250 : Shape := ⟨1, ![250]⟩
abbrev S8000000x1 : Shape := ⟨2, ![8000000, 1]⟩

abbrev nBuf : Space → Nat
  | .hbm => 61
  | .vmem => 0
  | .smem => 0
  | _ => 0

abbrev bufTy : (tb : Table) → Fin (tcTables nBuf tb) → BufTy
  | .hbm, ⟨0, _⟩ => ⟨S2000000x5, .f32⟩
  | .hbm, ⟨1, _⟩ => ⟨S2000000x5, .f32⟩
  | .hbm, ⟨2, _⟩ => ⟨S2000000, .f32⟩
  | .hbm, ⟨3, _⟩ => ⟨S2000000, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S2000000x4, .f32⟩
  | .hbm, ⟨14, _⟩ => ⟨S_, .f32⟩
  | .hbm, ⟨15, _⟩ => ⟨S2000000x4, .f32⟩
  | .hbm, ⟨16, _⟩ => ⟨S2000000x4, .f32⟩
  | .hbm, ⟨17, _⟩ => ⟨S2000000x4, .f32⟩
  | .hbm, ⟨18, _⟩ => ⟨S2000000x4, .f32⟩
  | .hbm, ⟨19, _⟩ => ⟨S_, .f32⟩
  | .hbm, ⟨20, _⟩ => ⟨S2000000x4, .f32⟩
  | .hbm, ⟨21, _⟩ => ⟨S2000000x4, .f32⟩
  | .hbm, ⟨22, _⟩ => ⟨S_, .f32⟩
  | .hbm, ⟨23, _⟩ => ⟨S2000000x4, .f32⟩
  | .hbm, ⟨24, _⟩ => ⟨S2000000x4, .f32⟩
  | .hbm, ⟨25, _⟩ => ⟨S_, .i32⟩
  | .hbm, ⟨26, _⟩ => ⟨S4, .i32⟩
  | .hbm, ⟨27, _⟩ => ⟨S4, .i1⟩
  | .hbm, ⟨28, _⟩ => ⟨S_, .i32⟩
  | .hbm, ⟨29, _⟩ => ⟨S4, .i32⟩
  | .hbm, ⟨30, _⟩ => ⟨S4, .i32⟩
  | .hbm, ⟨31, _⟩ => ⟨S4, .i32⟩
  | .hbm, ⟨32, _⟩ => ⟨S4x1, .i32⟩
  | .hbm, ⟨33, _⟩ => ⟨S2000000x4, .f32⟩
  | .hbm, ⟨34, _⟩ => ⟨S8000000, .f32⟩
  | .hbm, ⟨35, _⟩ => ⟨S8000000, .f32⟩
  | .hbm, ⟨36, _⟩ => ⟨S1x2000000, .f32⟩
  | .hbm, ⟨37, _⟩ => ⟨S4x2000000, .f32⟩
  | .hbm, ⟨38, _⟩ => ⟨S8000000, .f32⟩
  | .hbm, ⟨39, _⟩ => ⟨S1x2000000, .i32⟩
  | .hbm, ⟨40, _⟩ => ⟨S4x2000000, .i32⟩
  | .hbm, ⟨41, _⟩ => ⟨S8000000, .i32⟩
  | .hbm, ⟨42, _⟩ => ⟨S8000000, .f32⟩
  | .hbm, ⟨43, _⟩ => ⟨S8000000, .f32⟩
  | .hbm, ⟨44, _⟩ => ⟨S_, .f32⟩
  | .hbm, ⟨45, _⟩ => ⟨S250, .f32⟩
  | .hbm, ⟨46, _⟩ => ⟨S8000000x1, .i32⟩
  | .hbm, ⟨47, _⟩ => ⟨S250, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S250, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S2000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1_0 : S4.BroadcastsInDim S4x1 (![0] : Fin 1 → Fin S4x1.rank)
  bcast_S_S2000000x4 : S_.BroadcastsInDim S2000000x4 (![] : Fin 0 → Fin S2000000x4.rank)
  shapeCasts_S2000000x4_S8000000 : S2000000x4.ShapeCasts S8000000
  shapeCasts_S2000000_S1x2000000 : S2000000.ShapeCasts S1x2000000
  bcast_S1x2000000_S4x2000000_0_1 : S1x2000000.BroadcastsInDim S4x2000000 (![0, 1] : Fin 2 → Fin S4x2000000.rank)
  shapeCasts_S4x2000000_S8000000 : S4x2000000.ShapeCasts S8000000
  bcast_S_S250 : S_.BroadcastsInDim S250 (![] : Fin 0 → Fin S250.rank)
  bcast_S8000000_S8000000x1_0 : S8000000.BroadcastsInDim S8000000x1 (![0] : Fin 1 → Fin S8000000x1.rank)
  reducesTo_S250_S_d0 : S250.ReducesTo [0] S_
  h_S_ : 0 < S_.numel
  gather_S2000000x5_S4x1_S2000000x4_0_1_n_n_1_1_20000001_wf : GatherDims.WF S2000000x5 S4x1 S2000000x4 [0] [1] [] [1] [] 1 ![2000000, 1]
  scatter_S250_S8000000x1_S8000000_n_0_0_1_wf : ScatterDims.WF S250 S8000000x1 S8000000 [] [0] [0] 1

variable [Facts₀]

def gather_S2000000x5_S4x1_S2000000x4_0_1_n_n_1_1_20000001 : GatherDims S2000000x5 S4x1 S2000000x4 where
  offsetDims := [0]
  collapsedSliceDims := [1]
  operandBatchingDims := []
  startIndicesBatchingDims := []
  startIndexMap := [1]
  indexVectorDim := 1
  sliceSizes := ![2000000, 1]
  wf := gather_S2000000x5_S4x1_S2000000x4_0_1_n_n_1_1_20000001_wf
def scatter_S250_S8000000x1_S8000000_n_0_0_1 : ScatterDims S250 S8000000x1 S8000000 where
  updateWindowDims := []
  insertedWindowDims := [0]
  scatterDimsToOperandDims := [0]
  indexVectorDim := 1
  wf := scatter_S250_S8000000x1_S8000000_n_0_0_1_wf

class Facts : Prop extends Facts₀ where

variable [Facts]
-- ==== Proof.KerPiece.lean ====
/-
  What one grid point leaves in the output's staging buffer, as one pure function of what the point reads.

  At every point the body ends with a single store covering the whole 1 × 256 block: the block it read from the output
  buffer plus the point's addend. At the first point it first stores the zero block and reads that back, so there the
  block read is the zero block; at every later point it is what the point before left.
-/
import proofs.«420226_j14431090115064_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Piece

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The block a point stores: the body's arithmetic on the point's four input blocks and on the block `v` it read from
    the output buffer. -/
def stored (x0 x1 : Vec F S4x1000x5 .f32) (x2 : Vec F S1000x4 .f32) (x3 : Vec F S1000x4 .i32) (v : Vec F S1x256 .f32) :
    Vec F S1x256 .f32 :=
  k0_pay1 (k0_pay3 x0 x1 x2) (k0_pay4 x3) (iota .tc S1x256 32 [1] iota_S1x256_d1_w32) (k0_pay5 x0 x1 x2 x3)
    (k0_pay6 x0 x1 x2 x3) v

/-- A later point: over the block `xo` the point before left. -/
theorem out_B (c : Dev nD) (i : grid0.Coords) (a1 : Memref sig .tc .vmem S4x1000x5 .f32) (h1 : a1.IsWhole)
    (a2 : Memref sig .tc .vmem S4x1000x5 .f32) (h2 : a2.IsWhole) (a3 : Memref sig .tc .vmem S1000x4 .f32) (h3 : a3.IsWhole)
    (a4 : Memref sig .tc .vmem S1000x4 .i32) (h4 : a4.IsWhole) (a5 : Memref sig .tc .vmem S1x256 .f32) (h5 : a5.IsWhole)
    (hc : ¬cond0_0 i) (x0 x1 : Vec F S4x1000x5 .f32) (x2 : Vec F S1000x4 .f32) (x3 : Vec F S1000x4 .i32) (xo : Vec F S1x256 .f32) :
    out0_B_4 c i a1 h1 a2 h2 a3 h3 a4 h4 a5 h5 hc x0 x1 x2 x3 xo = stored x0 x1 x2 x3 xo := by
  unfold out0_B_4
  rw [View.read_writes_eq_canon _ _ _ (cover0_B_4 c i a1 h1 a2 h2 a3 h3 a4 h4 a5 h5 hc x0 x1 x2 x3 xo)]
  unfold kernelRun0_B
  dsimp only
  sl_unfold_words
  rw [View.canon_unit_zero hz2]
  unfold stored
  simp only [View.readAt_eq_ld, h1.read_unread, h2.read_unread, h3.read_unread, h4.read_unread, h5.read_unread,
    View.ld_unit_zero (S := S4x1000x5) hz3, View.ld_unit_zero (S := S1000x4) hz2, View.ld_unit_zero (S := S1x256) hz2]

/-- The first point: over the zero block it has just stored. -/
theorem out_A (c : Dev nD) (i : grid0.Coords) (a1 : Memref sig .tc .vmem S4x1000x5 .f32) (h1 : a1.IsWhole)
    (a2 : Memref sig .tc .vmem S4x1000x5 .f32) (h2 : a2.IsWhole) (a3 : Memref sig .tc .vmem S1000x4 .f32) (h3 : a3.IsWhole)
    (a4 : Memref sig .tc .vmem S1000x4 .i32) (h4 : a4.IsWhole) (a5 : Memref sig .tc .vmem S1x256 .f32) (h5 : a5.IsWhole)
    (hc : cond0_0 i) (x0 x1 : Vec F S4x1000x5 .f32) (x2 : Vec F S1000x4 .f32) (x3 : Vec F S1000x4 .i32) :
    out0_A_4 c i a1 h1 a2 h2 a3 h3 a4 h4 a5 h5 hc x0 x1 x2 x3 = stored x0 x1 x2 x3 (k0_pay2 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S1x256) hz2]
  unfold stored
  simp only [View.readAt_eq_ld, h1.read_unread, h2.read_unread, h3.read_unread, h4.read_unread,
    View.readCov_unit_zero (S := S1x256) _ hz2,
    View.ld_unit_zero (S := S4x1000x5) hz3, View.ld_unit_zero (S := S1000x4) hz2, View.ld_unit_zero (S := S1x256) hz2]

end Cert.KernelIdeal.Piece

end
-- ==== Proof.Spec.lean ====
/-
  The mathematics of the per-day weighted sum, stated once, free of any program.

  Rows of the 2,000,000 × 5 inputs are grouped as (q, n): row q·500000 + n, q < 4. Position 4n + j of the weight and
  day vectors pairs with column j of those four rows. For a day k the grouped form adds, over every position 4n + j whose
  day is k, the weight times the sum over q of σ(12·x)·t at (row (q, n), column j); the flat form adds, over every flat
  index f < 8,000,000 whose tiled day (position f mod 2,000,000) is k, weight · t · σ(12·x) at (row f / 4, column f mod 4).
  Writing f = 4·(q·500000 + n) + j shows f mod 2,000,000 = 4n + j, so the two are the same sum, regrouped, with the
  weight distributed over the q-sum. The final scalar is the same function of the 250 day totals on both sides.
-/
import Idealize.ShloMosaic.PureOps
import Idealize.ShloMosaic.PureOps.Ideal
import Idealize.ShloMosaic.Lib.ValueIdx

noncomputable section

namespace Cert.Spec

open Idealize.ShloMosaic Idealize.ShloMosaic.ValueIdx

/-- The shapes: the two sample arrays, the two per-sample vectors, the day totals, a scalar. -/
abbrev SA : Shape := ⟨2, ![2000000, 5]⟩
abbrev SV : Shape := ⟨1, ![2000000]⟩
abbrev SB : Shape := ⟨1, ![250]⟩
abbrev S0 : Shape := ⟨0, ![]⟩

/-- Sample row q·500000 + n. -/
def row (q : Fin 4) (n : Fin 500000) : Fin 2000000 := ⟨q.val * 500000 + n.val, by have := q.isLt; have := n.isLt; omega⟩
/-- Response column j among the five columns. -/
def col (j : Fin 4) : Fin 5 := ⟨j.val, by have := j.isLt; omega⟩
/-- Position 4n + j of the weight and day vectors. -/
def pos (n : Fin 500000) (j : Fin 4) : Fin 2000000 := ⟨4 * n.val + j.val, by have := j.isLt; have := n.isLt; omega⟩
/-- Row 1000·t + r: row r of the t-th stretch of a thousand rows. -/
def brow (t : Fin 500) (r : Fin 1000) : Fin 500000 := ⟨1000 * t.val + r.val, by have := t.isLt; have := r.isLt; omega⟩

/-- σ(12·x), the logistic function of twelve times x, on the extended reals. -/
def sg (x : EReal) : EReal := Ideal.logistic (Ideal.ofBits .f32 0x41400000#32 * x)

/-- The indicator that the day word d is day k. -/
def hot (d : BitVec 32) (k : ℕ) : EReal := if d = BitVec.ofNat 32 k then 1 else 0

/-- The grouped term at position (n, j): the weight times the sum over the four rows (q, n) of σ(12·x)·t at column j. -/
def val (X T : SA.Idx → EReal) (W : SV.Idx → EReal) (n : Fin 500000) (j : Fin 4) : EReal :=
  (∑ q : Fin 4, sg (X (ix2 (row q n) (col j))) * T (ix2 (row q n) (col j))) * W (ix1 (pos n j))

/-- Day k's total in the grouped form: over the 500 stretches, the 4 columns and the 1000 rows of a stretch. -/
def PiK (X T : SA.Idx → EReal) (W : SV.Idx → EReal) (D : SV.Idx → BitVec 32) (k : ℕ) : EReal :=
  ∑ t : Fin 500, ∑ j : Fin 4, ∑ r : Fin 1000, val X T W (brow t r) j * hot (D (ix1 (pos (brow t r) j))) k

/-- The flat index's tiled position f mod 2,000,000, its sample row f / 4, its column f mod 4. -/
def fpos (f : Fin 8000000) : Fin 2000000 := ⟨f.val % 2000000, Nat.mod_lt _ (by norm_num)⟩
def frow (f : Fin 8000000) : Fin 2000000 := ⟨f.val / 4, by have := f.isLt; omega⟩
def fcol (f : Fin 8000000) : Fin 5 := ⟨f.val % 4, by omega⟩

/-- Day k's total in the flat form: over the flat indices whose tiled day, read as a signed word, is k. -/
def PiR (X T : SA.Idx → EReal) (W : SV.Idx → EReal) (D : SV.Idx → BitVec 32) (k : ℕ) : EReal :=
  ∑ f ∈ Finset.univ.filter (fun f : Fin 8000000 => (D (ix1 (fpos f))).toInt = (k : ℤ)),
    (W (ix1 (fpos f)) * T (ix2 (frow f) (fcol f))) * sg (X (ix2 (frow f) (fcol f)))

theorem hred : SB.ReducesTo [0] S0 := by decide
theorem hS0 : 0 < S0.numel := by decide

/-- The sum of the day totals. -/
def total (P : FVec Ideal SB .f32) : FVec Ideal S0 .f32 :=
  Host.reduceAdd (F := Ideal) P (constant (F := Ideal) S0 .f32 0x00000000#32) hred hS0

/-- The final scalar from the 250 day totals: −1·s·max(s, 0) / Σ P² / 250 with s = Σ P. -/
def tail (P : FVec Ideal SB .f32) : FVec Ideal S0 .f32 :=
  Host.divf (F := Ideal)
    (Host.divf (F := Ideal)
      (mulf (mulf (constant (F := Ideal) S0 .f32 0xBF800000#32) (total P)) (maximumf (total P) (constant (F := Ideal) S0 .f32 0x00000000#32)))
      (Host.reduceAdd (F := Ideal) (mulf P P) (constant (F := Ideal) S0 .f32 0x00000000#32) hred hS0))
    (constant (F := Ideal) S0 .f32 0x437A0000#32)

/-- The day totals as an array of 250. -/
def arrK (X T : SA.Idx → EReal) (W : SV.Idx → EReal) (D : SV.Idx → BitVec 32) : FVec Ideal SB .f32 := fun i => PiK X T W D (i 0).val
def arrR (X T : SA.Idx → EReal) (W : SV.Idx → EReal) (D : SV.Idx → BitVec 32) : FVec Ideal SB .f32 := fun i => PiR X T W D (i 0).val

end Cert.Spec

end
-- ==== Proof.LibColumn.lean ====
/-
  A column kept after a sum over the last axis, read at an index.

  A length-a vector viewed as an a × 1 column reads, at (i, 0), the vector at i; an a × 1 column repeated along
  b columns reads, at (i, j), the column at (i, 0), whatever j. Together they say that a row total broadcast
  back over its row is that total at every column.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KerBlock.lean ====
/-
  The value one grid point stores, read at a lane, at the ideal instance.

  A grid point holds blocks x0, x1 (4 × 1000 × 5), x2 (1000 × 4, the weights) and x3 (1000 × 4, the day words). Its
  arithmetic first forms, at (r, j), the weighted inner sum

      val (r, j) = (Σ_q σ(12·x0 (q, r, j)) · x1 (q, r, j)) · x2 (r, j),      j among the first four of the five columns,

  a sum over the leading axis of a product of arrays. Then, for each column j, it repeats column j of val along 256
  lanes, multiplies by the indicator "the day word x3 (r, j) is the lane number k" (a word comparison, widened and read as
  a signed integer: the real 1 or 0), and sums over the thousand rows; the four column addends are added, from a zero
  array, to what the output held. So lane k of the stored array is the held value plus

      Σ_j Σ_r val (r, j) · [x3 (r, j) = k].

  Each step that is not pointwise — the two sums over a leading axis, the cut of the first four columns, the cut of one
  column and its repetition along the lanes, the lane counter — is read at explicit coordinates in a lemma of its own;
  the last theorem puts them together.
-/
import proofs.«420226_j14431090115064_2_alg».proof.Proof.Gen.KernelIdeal.Skeleton
import proofs.«420226_j14431090115064_2_alg».proof.Proof.Spec
import proofs.«420226_j14431090115064_2_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BlockValue

open Idealize.ShloMosaic Idealize.ShloMosaic.ValueIdx Cert.KernelIdeal Cert.KernelIdeal.Gen Cert.Spec

/-- A sum over the leading axis of a 4 × 1000 × 4 array reads, at (r, j), the sum over q of the array at (q, r, j). -/
theorem red3_apply (src : FVec Ideal S4x1000x4 .f32) (r : Fin 1000) (j : Fin 4) :
    multiReduction (F := Ideal) .add [0] S1000x4 src 0x00000000#32 reduces_S4x1000x4_S1000x4 (.inl rfl) rfl (ix2 r j)
      = ∑ q : Fin 4, src (ix3 q r j) := by
  refine (Ideal.multiReduction_add_single src _ reduces_S4x1000x4_S1000x4 (.inl rfl) rfl (ix2 r j)).trans ?_
  refine Finset.sum_congr rfl fun q _ => congrArg src ?_
  funext c
  match c with
  | ⟨0, _⟩ => rfl
  | ⟨1, _⟩ => rfl
  | ⟨2, _⟩ => rfl

/-- The first four of five columns: the slice reads, at (q, r, j), the array at (q, r, column j). -/
theorem slice_col_apply {α : Type} (x : S4x1000x5.Idx → α) (q : Fin 4) (r : Fin 1000) (j : Fin 4) :
    extractStridedSlice S4x1000x4 ![0, 0, 0] x slices_S4x1000x5_o0_0_0_S4x1000x4 (ix3 q r j) = x (ix3 q r (col j)) :=
  extractStridedSlice_apply _ x _ (ix3 q r j) (ix3 q r (col j)) (fun ax => by
    match ax with
    | ⟨0, _⟩ => exact (Nat.zero_add _).symm
    | ⟨1, _⟩ => exact (Nat.zero_add _).symm
    | ⟨2, _⟩ => exact (Nat.zero_add _).symm)

/-- The weighted inner sum at (r, j): the sum over q of σ(12·x0)·x1 at (q, r, column j), times the weight at (r, j). -/
theorem pay3_apply (x0 x1 : Vec Ideal S4x1000x5 .f32) (x2 : Vec Ideal S1000x4 .f32) (r : Fin 1000) (j : Fin 4) :
    k0_pay3 (F := Ideal) x0 x1 x2 (ix2 r j)
      = (∑ q : Fin 4, sg (x0 (ix3 q r (col j))) * x1 (ix3 q r (col j))) * x2 (ix2 r j) := by
  unfold k0_pay3
  rw [shapeCast_self, shapeCast_self, shapeCast_self, mulf_apply, red3_apply]
  refine congrArg (· * x2 (ix2 r j)) (Finset.sum_congr rfl fun q _ => ?_)
  rw [mulf_apply, slice_col_apply x1 q r j]
  refine congrArg (· * x1 (ix3 q r (col j))) ?_
  show Ideal.logistic (Ideal.ofBits .f32 0x41400000#32
    * extractStridedSlice S4x1000x4 ![0, 0, 0] x0 slices_S4x1000x5_o0_0_0_S4x1000x4 (ix3 q r j)) = _
  rw [slice_col_apply x0 q r j]
  rfl

/-- A sum over the rows of a 1000 × 256 array reads, at lane k, the sum over r of the array at (r, k). -/
theorem red2_apply (src : FVec Ideal S1000x256 .f32) (k : Fin 256) :
    multiReduction (F := Ideal) .add [0] S256 src 0x00000000#32 reduces_S1000x256_S256 (.inl rfl) rfl (ix1 k)
      = ∑ r : Fin 1000, src (ix2 r k) := by
  refine (Ideal.multiReduction_add_single src _ reduces_S1000x256_S256 (.inl rfl) rfl (ix1 k)).trans ?_
  refine Finset.sum_congr rfl fun r _ => congrArg src ?_
  funext c
  match c with
  | ⟨0, _⟩ => rfl
  | ⟨1, _⟩ => rfl

/-- The word comparison "d is day n", widened to 32 bits and read as a signed integer, is the indicator of d = n. -/
theorem onehot_word (d : BitVec 32) (n : ℕ) :
    (FloatOps.sitofp (F := Ideal) .f32 ((IntOp.cmpi .eq d (BitVec.ofNat 32 n)).setWidth 32) : EReal) = hot d n := by
  show (((((BitVec.ofBool (d == BitVec.ofNat 32 n)).setWidth 32).toInt : ℝ)) : EReal) = hot d n
  unfold hot
  by_cases h : d = BitVec.ofNat 32 n
  · have hb : (d == BitVec.ofNat 32 n) = true := beq_iff_eq.mpr h
    have h1 : ((BitVec.ofBool true).setWidth 32).toInt = 1 := by decide
    rw [if_pos h, hb, h1, Int.cast_one, EReal.coe_one]
  · have hb : (d == BitVec.ofNat 32 n) = false := beq_eq_false_iff_ne.mpr h
    have h0 : ((BitVec.ofBool false).setWidth 32).toInt = 0 := by decide
    rw [if_neg h, hb, h0, Int.cast_zero, EReal.coe_zero]

/-- One column's addend at lane k: the column j of the values, repeated along the lanes, times the indicator that the
    column j of the day words is the lane, summed over the thousand rows. -/
theorem column_apply (val : FVec Ideal S1000x4 .f32) (day : IVec S1000x4 32) (o : ℕ) (h : S1000x4.Slices ![0, o] S1000x1)
    (j : Fin 4) (hj : j.val = o) (k : Fin 256) :
    shapeCast S1x256
        (multiReduction (F := Ideal) .add [0] S256
          (mulf (broadcastTo S1000x256 (extractStridedSlice S1000x1 ![0, o] val h) broadcasts_S1000x1_S1000x256)
            (sitofp .f32 (extui 32 (cmpi .eq
              (broadcastTo S1000x256 (extractStridedSlice S1000x1 ![0, o] day h) broadcasts_S1000x1_S1000x256)
              (broadcastTo S1000x256 (iota .tc S1x256 32 [1] iota_S1x256_d1_w32) broadcasts_S1x256_S1000x256)) natLt_1_32)))
          0x00000000#32 reduces_S1000x256_S256 (.inl rfl) rfl)
        shapeCasts_S256_S1x256 (ix2 (0 : Fin 1) k)
      = ∑ r : Fin 1000, val (ix2 r j) * hot (day (ix2 r j)) k.val := by
  rw [shapeCast_a_1a_apply, red2_apply]
  refine Finset.sum_congr rfl fun r _ => ?_
  rw [mulf_apply, Cert.LibColumn.broadcastTo_a1_ab_apply,
    slice2_axis1_apply o val h r (0 : Fin 1) j (hj.trans (Nat.add_zero o).symm)]
  refine congrArg (val (ix2 r j) * ·) ?_
  rw [sitofp_apply, extui_apply]
  show FloatOps.sitofp (F := Ideal) .f32 (BitVec.setWidth 32 (IntOp.cmpi .eq
      (broadcastTo S1000x256 (extractStridedSlice S1000x1 ![0, o] day h) broadcasts_S1000x1_S1000x256 (ix2 r k))
      (broadcastTo S1000x256 (iota .tc S1x256 32 [1] iota_S1x256_d1_w32) broadcasts_S1x256_S1000x256 (ix2 r k)))) = _
  rw [Cert.LibColumn.broadcastTo_a1_ab_apply, slice2_axis1_apply o day h r (0 : Fin 1) j (hj.trans (Nat.add_zero o).symm),
    broadcastTo_1b_ab_apply, iota_single_apply]
  exact onehot_word _ _

/-- What one grid point adds to day k: over the four columns j and the thousand rows r of the point's blocks, the weight
    x2 (r, j) times the sum over q of σ(12·x0)·x1 at (q, r, j), kept where the day word x3 (r, j) is k. -/
def blockSum (x0 x1 : Vec Ideal S4x1000x5 .f32) (x2 : Vec Ideal S1000x4 .f32) (x3 : Vec Ideal S1000x4 .i32) (k : ℕ) : EReal :=
  ∑ j : Fin 4, ∑ r : Fin 1000,
    ((∑ q : Fin 4, sg (x0 (ix3 q r (col j))) * x1 (ix3 q r (col j))) * x2 (ix2 r j)) * hot (x3 (ix2 r j)) k

/-- The block the point stores, at lane k: what the output buffer held (v69) plus the point's addend. -/
theorem stored_apply (x0 x1 : Vec Ideal S4x1000x5 .f32) (x2 : Vec Ideal S1000x4 .f32) (x3 : Vec Ideal S1000x4 .i32)
    (v69 : Vec Ideal S1x256 .f32) (k : Fin 256) :
    k0_pay1 (F := Ideal) (k0_pay3 x0 x1 x2) (k0_pay4 (F := Ideal) x3) (iota .tc S1x256 32 [1] iota_S1x256_d1_w32)
        (k0_pay5 x0 x1 x2 x3) (k0_pay6 x0 x1 x2 x3) v69 (ix2 (0 : Fin 1) k)
      = v69 (ix2 (0 : Fin 1) k) + blockSum x0 x1 x2 x3 k.val := by
  have h4 : k0_pay4 (F := Ideal) x3 = x3 := shapeCast_self _ _
  unfold k0_pay1 k0_pay5 k0_pay6
  rw [h4, shapeCast_self v69]
  simp only [addf_apply]
  rw [column_apply (k0_pay3 x0 x1 x2) x3 0 slices_S1000x4_o0_0_S1000x1 0 rfl k,
    column_apply (k0_pay3 x0 x1 x2) x3 1 slices_S1000x4_o0_1_S1000x1 1 rfl k,
    column_apply (k0_pay3 x0 x1 x2) x3 2 slices_S1000x4_o0_2_S1000x1 2 rfl k,
    column_apply (k0_pay3 x0 x1 x2) x3 3 slices_S1000x4_o0_3_S1000x1 3 rfl k]
  refine congrArg (v69 (ix2 (0 : Fin 1) k) + ·) ?_
  have hz : broadcast S1x256 (FloatOps.ofBits (F := Ideal) .f32 0x00000000#32) (ix2 (0 : Fin 1) k) = (0 : EReal) :=
    Ideal.ofBits_zero_f32
  rw [hz, zero_add]
  unfold blockSum
  rw [Fin.sum_univ_four]
  simp only [pay3_apply]

end Cert.KernelIdeal.BlockValue

end
-- ==== Proof.KerRead.lean ====
/-
  The four blocks a grid point reads, entry by entry, in terms of the program's arguments.

  Before the region the inputs and targets are viewed as 4 × 500000 × 5 (row-major: entry (q, n, c) is row q·500000 + n,
  column c) and the weights and days as 500000 × 4 (entry (n, j) is position 4n + j). Point t's blocks are rows
  1000·t … 1000·t + 999 of the middle (resp. first) axis.
-/
import proofs.«420226_j14431090115064_2_alg».proof.Proof.Gen.KernelIdeal.Frame
import proofs.«420226_j14431090115064_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Read

open Cert.KernelIdeal Cert.KernelIdeal.Gen Cert.Spec

variable {F : FTy → Type} [FloatOps F]
variable (m : (ℓ : Loc nD τ sig) → Buf (Elt F) ℓ)

/-- A grid point as a number below 500. -/
def pt (t : Fin cfg0.N) : Fin 500 := ⟨t.val, lt_of_lt_of_eq t.isLt N_0⟩

/-- The point's four input blocks, at their literal types. -/
abbrev xb0 (c : Dev nD) (t : Fin cfg0.N) : Vec F S4x1000x5 .f32 := iblk m c 0 t
abbrev xb1 (c : Dev nD) (t : Fin cfg0.N) : Vec F S4x1000x5 .f32 := iblk m c 1 t
abbrev xb2 (c : Dev nD) (t : Fin cfg0.N) : Vec F S1000x4 .f32 := iblk m c 2 t
abbrev xb3 (c : Dev nD) (t : Fin cfg0.N) : Vec F S1000x4 .i32 := iblk m c 3 t

/-- The arrays the region finds: the arguments re-viewed. -/
theorem V0_eq (c : Dev nD) : (V m c main_v0 : S4x500000x5.Idx → Elt F .f32)
    = shapeCast S4x500000x5 (m ((c : Thread nD τ).loc main_arg0)) shapeCasts_S2000000x5_S4x500000x5 := by
  show StableHlo.after hostOps0 (fun b => m (c, b)) (Proc.devRef .tc main_v0) = _
  after_results
  rfl
theorem V1_eq (c : Dev nD) : (V m c main_v1 : S4x500000x5.Idx → Elt F .f32)
    = shapeCast S4x500000x5 (m ((c : Thread nD τ).loc main_arg1)) shapeCasts_S2000000x5_S4x500000x5 := by
  show StableHlo.after hostOps0 (fun b => m (c, b)) (Proc.devRef .tc main_v1) = _
  after_results
  rfl
theorem V2_eq (c : Dev nD) : (V m c main_v2 : S500000x4.Idx → Elt F .f32)
    = shapeCast S500000x4 (m ((c : Thread nD τ).loc main_arg2)) shapeCasts_S2000000_S500000x4 := by
  show StableHlo.after hostOps0 (fun b => m (c, b)) (Proc.devRef .tc main_v2) = _
  after_results
  rfl
theorem V3_eq (c : Dev nD) : (V m c main_v3 : S500000x4.Idx → Elt F .i32)
    = shapeCast S500000x4 (m ((c : Thread nD τ).loc main_arg3)) shapeCasts_S2000000_S500000x4 := by
  show StableHlo.after hostOps0 (fun b => m (c, b)) (Proc.devRef .tc main_v3) = _
  after_results
  rfl

/-- Where each window's block sits at point t: block t along the long axis, block 0 along the others. -/
theorem idx0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)
theorem idx1 : ∀ t : Fin cfg0.N, win0_1.index t (0 : Fin 3) = 0 ∧ win0_1.index t (1 : Fin 3) = t.val ∧ win0_1.index t (2 : Fin 3) = 0 :=
  (by decide +kernel : ∀ t : Fin grid0.N, win0_1.index t (0 : Fin 3) = 0 ∧ win0_1.index t (1 : Fin 3) = t.val ∧ win0_1.index t (2 : Fin 3) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Entry (q, r, c) of point t's inputs block is the argument at row q·500000 + 1000·t + r, column c. -/
theorem xb0_apply (c : Dev nD) (t : Fin cfg0.N) (q : Fin 4) (r : Fin 1000) (cc : Fin 5) :
    xb0 m c t (ix3 q r cc) = m ((c : Thread nD τ).loc main_arg0) (ix2 (row q (brow (pt t) r)) cc) := by
  show iblk m c 0 t (ix3 q r cc) = _
  unfold iblk
  rw [View.read_apply]
  show V m c main_v0 (((cfg0.win 0).blk t).view.emb (ix3 q r cc)) = _
  rw [V0_eq]
  refine shapeCast_apply _ _ _ _ ?_
  rw [Shape.rowMajor_val_three]
  refine (Shape.rowMajor_val_two (d := ![2000000, 5]) (ix2 (row q (brow (pt t) r)) cc)).trans ?_
  obtain ⟨h0, h1, h2⟩ := idx0 t
  show (row q (brow (pt t) r)).val * 5 + cc.val
    = ((win0_0.index t 0 * 4 + 1 * q.val) * 500000 + (win0_0.index t 1 * 1000 + 1 * r.val)) * 5 + (win0_0.index t 2 * 5 + 1 * cc.val)
  rw [h0, h1, h2]
  show (q.val * 500000 + (1000 * t.val + r.val)) * 5 + cc.val = _
  omega

/-- The same for the targets block. -/
theorem xb1_apply (c : Dev nD) (t : Fin cfg0.N) (q : Fin 4) (r : Fin 1000) (cc : Fin 5) :
    xb1 m c t (ix3 q r cc) = m ((c : Thread nD τ).loc main_arg1) (ix2 (row q (brow (pt t) r)) cc) := by
  show iblk m c 1 t (ix3 q r cc) = _
  unfold iblk
  rw [View.read_apply]
  show V m c main_v1 (((cfg0.win 1).blk t).view.emb (ix3 q r cc)) = _
  rw [V1_eq]
  refine shapeCast_apply _ _ _ _ ?_
  rw [Shape.rowMajor_val_three]
  refine (Shape.rowMajor_val_two (d := ![2000000, 5]) (ix2 (row q (brow (pt t) r)) cc)).trans ?_
  obtain ⟨h0, h1, h2⟩ := idx1 t
  show (row q (brow (pt t) r)).val * 5 + cc.val
    = ((win0_1.index t 0 * 4 + 1 * q.val) * 500000 + (win0_1.index t 1 * 1000 + 1 * r.val)) * 5 + (win0_1.index t 2 * 5 + 1 * cc.val)
  rw [h0, h1, h2]
  show (q.val * 500000 + (1000 * t.val + r.val)) * 5 + cc.val = _
  omega

/-- Entry (r, j) of point t's weights block is the argument at position 4·(1000·t + r) + j. -/
theorem xb2_apply (c : Dev nD) (t : Fin cfg0.N) (r : Fin 1000) (j : Fin 4) :
    xb2 m c t (ix2 r j) = m ((c : Thread nD τ).loc main_arg2) (ix1 (pos (brow (pt t) r) j)) := by
  show iblk m c 2 t (ix2 r j) = _
  unfold iblk
  rw [View.read_apply]
  show V m c main_v2 (((cfg0.win 2).blk t).view.emb (ix2 r j)) = _
  rw [V2_eq]
  refine shapeCast_apply _ _ _ _ ?_
  rw [Shape.rowMajor_val_two]
  refine (Shape.rowMajor_val_one (d := ![2000000]) (ix1 (pos (brow (pt t) r) j))).trans ?_
  obtain ⟨h0, h1⟩ := idx2 t
  show (pos (brow (pt t) r) j).val = (win0_2.index t 0 * 1000 + 1 * r.val) * 4 + (win0_2.index t 1 * 4 + 1 * j.val)
  rw [h0, h1]
  show 4 * (1000 * t.val + r.val) + j.val = _
  omega

/-- The same for the days block. -/
theorem xb3_apply (c : Dev nD) (t : Fin cfg0.N) (r : Fin 1000) (j : Fin 4) :
    xb3 m c t (ix2 r j) = m ((c : Thread nD τ).loc main_arg3) (ix1 (pos (brow (pt t) r) j)) := by
  show iblk m c 3 t (ix2 r j) = _
  unfold iblk
  rw [View.read_apply]
  show V m c main_v3 (((cfg0.win 3).blk t).view.emb (ix2 r j)) = _
  rw [V3_eq]
  refine shapeCast_apply _ _ _ _ ?_
  rw [Shape.rowMajor_val_two]
  refine (Shape.rowMajor_val_one (d := ![2000000]) (ix1 (pos (brow (pt t) r) j))).trans ?_
  obtain ⟨h0, h1⟩ := idx3 t
  show (pos (brow (pt t) r) j).val = (win0_3.index t 0 * 1000 + 1 * r.val) * 4 + (win0_3.index t 1 * 4 + 1 * j.val)
  rw [h0, h1]
  show 4 * (1000 * t.val + r.val) + j.val = _
  omega

end Cert.KernelIdeal.Read

end
-- ==== Proof.KerFold.lean ====
/-
  What the points leave in the output block, lane by lane: a running sum.

  The first point leaves the zero block plus its addend; each later point leaves what the point before left plus its own
  addend. So after point n lane k holds the sum of the addends of points 0 … n, and after the 500 points the sum over
  every stretch of a thousand rows — day k's total in the grouped form.
-/
import proofs.«420226_j14431090115064_2_alg».proof.Proof.KerPiece
import proofs.«420226_j14431090115064_2_alg».proof.Proof.KerBlock
import proofs.«420226_j14431090115064_2_alg».proof.Proof.KerRead

noncomputable section

open Idealize.ShloMosaic Idealize.ShloMosaic.TcCoe Idealize.SL.Sem Idealize.ShloMosaic.ValueIdx

namespace Cert.KernelIdeal.Fold

open Cert.KernelIdeal Cert.KernelIdeal.Gen Cert.Spec
open Cert.KernelIdeal.Read Cert.KernelIdeal.Piece Cert.KernelIdeal.BlockValue

variable (m : (ℓ : Loc nD τ sig) → Buf (Elt Ideal) ℓ)

/-- What point s adds to day k (nothing past the grid). -/
def addend (c : Dev nD) (s : ℕ) (k : ℕ) : EReal :=
  if h : s < cfg0.N then blockSum (xb0 m c ⟨s, h⟩) (xb1 m c ⟨s, h⟩) (xb2 m c ⟨s, h⟩) (xb3 m c ⟨s, h⟩) k else 0

/-- The block the first point stores first is zero in every lane. -/
theorem zero_apply (i : S1x256.Idx) : (k0_pay2 (F := Ideal)) i = 0 := by
  unfold k0_pay2
  show Ideal.ofBits .f32 0x00000000#32 = 0
  exact Ideal.ofBits_zero_f32

/-- The first point's block. -/
theorem at_first (c : Dev nD) (h : 0 < cfg0.N) :
    outsAt0 m c 0 h = stored (xb0 m c ⟨0, h⟩) (xb1 m c ⟨0, h⟩) (xb2 m c ⟨0, h⟩) (xb3 m c ⟨0, h⟩) (k0_pay2 (F := Ideal)) :=
  (outsAt0_A m c ⟨0, h⟩ rfl).trans
    (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) (ms0_4 ⟨0, h⟩) (hs0_4 ⟨0, h⟩) ((hcond0_0 ⟨0, h⟩).mpr rfl)
      (iblk m c 0 ⟨0, h⟩) (iblk m c 1 ⟨0, h⟩) (iblk m c 2 ⟨0, h⟩) (iblk m c 3 ⟨0, h⟩))

/-- A later point's block, over what the point before left. -/
theorem at_later (c : Dev nD) (t : Fin cfg0.N) (hB : ¬t.val % 500 = 0) :
    outsAt0 m c t.val t.isLt
      = stored (xb0 m c t) (xb1 m c t) (xb2 m c t) (xb3 m c t)
          (outsAt0 m c (t.val - 1) (Nat.lt_of_le_of_lt (Nat.sub_le _ _) t.isLt)) :=
  (outsAt0_B m c t hB).trans
    (out_B c (grid0.coords t) (ms0_0 t) (hs0_0 t) (ms0_1 t) (hs0_1 t) (ms0_2 t) (hs0_2 t) (ms0_3 t) (hs0_3 t) (ms0_4 t) (hs0_4 t)
      (fun h => hB ((hcond0_0 t).mp h)) (iblk m c 0 t) (iblk m c 1 t) (iblk m c 2 t) (iblk m c 3 t)
      (outsAt0 m c (t.val - 1) (Nat.lt_of_le_of_lt (Nat.sub_le _ _) t.isLt)))

/-- After point n, lane k holds the sum of the addends of points 0 … n. -/
theorem outsAt_apply (c : Dev nD) : ∀ (n : ℕ) (h : n < cfg0.N) (k : Fin 256),
    outsAt0 m c n h (ix2 (0 : Fin 1) k) = ∑ s ∈ Finset.range (n + 1), addend m c s k.val
  | 0, h, k => by
    rw [at_first m c h]
    refine (stored_apply (xb0 m c ⟨0, h⟩) (xb1 m c ⟨0, h⟩) (xb2 m c ⟨0, h⟩) (xb3 m c ⟨0, h⟩) (k0_pay2 (F := Ideal)) k).trans ?_
    rw [zero_apply, zero_add, Finset.sum_range_one]
    unfold addend
    rw [dif_pos h]
  | n + 1, h, k => by
    have hN : cfg0.N = 500 := N_0
    have hB : ¬(⟨n + 1, h⟩ : Fin cfg0.N).val % 500 = 0 := by dsimp only; omega
    rw [at_later m c ⟨n + 1, h⟩ hB]
    refine (stored_apply (xb0 m c ⟨n + 1, h⟩) (xb1 m c ⟨n + 1, h⟩) (xb2 m c ⟨n + 1, h⟩) (xb3 m c ⟨n + 1, h⟩) _ k).trans ?_
    show outsAt0 m c n (Nat.lt_of_succ_lt h) (ix2 (0 : Fin 1) k) + _ = _
    rw [outsAt_apply c n (Nat.lt_of_succ_lt h) k, Finset.sum_range_succ _ (n + 1)]
    congr 1
    unfold addend
    rw [dif_pos h]

/-- A stretch's addend, in terms of the program's arguments. -/
theorem addend_eq (c : Dev nD) (t : Fin 500) (k : ℕ) :
    addend m c t.val k
      = ∑ j : Fin 4, ∑ r : Fin 1000,
          val (m ((c : Thread nD τ).loc main_arg0)) (m ((c : Thread nD τ).loc main_arg1)) (m ((c : Thread nD τ).loc main_arg2)) (brow t r) j
            * hot (m ((c : Thread nD τ).loc main_arg3) (ix1 (pos (brow t r) j))) k := by
  have ht : t.val < cfg0.N := by rw [show cfg0.N = 500 from N_0]; exact t.isLt
  unfold addend
  rw [dif_pos ht]
  unfold blockSum
  refine Finset.sum_congr rfl fun j _ => Finset.sum_congr rfl fun r _ => ?_
  rw [xb2_apply, xb3_apply]
  unfold val
  have hq : ∀ q : Fin 4, sg (xb0 m c ⟨t.val, ht⟩ (ix3 q r (col j))) * xb1 m c ⟨t.val, ht⟩ (ix3 q r (col j))
      = sg (m ((c : Thread nD τ).loc main_arg0) (ix2 (row q (brow t r)) (col j))) * m ((c : Thread nD τ).loc main_arg1) (ix2 (row q (brow t r)) (col j)) := by
    intro q
    rw [xb0_apply, xb1_apply]
    rfl
  rw [Finset.sum_congr rfl fun q _ => hq q]
  rfl

/-- After n + 1 = 500 points: day k's grouped total. -/
theorem sum_addend (c : Dev nD) (k : ℕ) :
    ∑ s ∈ Finset.range 500, addend m c s k
      = PiK (m ((c : Thread nD τ).loc main_arg0)) (m ((c : Thread nD τ).loc main_arg1)) (m ((c : Thread nD τ).loc main_arg2))
          (m ((c : Thread nD τ).loc main_arg3)) k := by
  rw [PiK, ← Fin.sum_univ_eq_sum_range (fun s => addend m c s k) 500]
  exact Finset.sum_congr rfl fun t _ => addend_eq m c t k

end Cert.KernelIdeal.Fold

end
-- ==== Proof.KerFinal.lean ====
/-
  From the last grid point's block to the program's result.

  The output window's one block (block (0, 0), the whole 1 × 256 array) is written back once, after the last of the 500
  points, so the array ends holding what that point left. The lines after the region keep the first 250 lanes and
  apply the final scalar formula to them.
-/
import proofs.«420226_j14431090115064_2_alg».proof.Proof.Gen.KernelIdeal.Frame
import proofs.«420226_j14431090115064_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ)

theorem lastLt : 499 < cfg0.N := by rw [show cfg0.N = 500 from N_0]; decide

/-- The last point, point 499, by name. -/
@[irreducible] def tLast : Fin cfg0.N := ⟨499, lastLt⟩

theorem tLast_val : tLast.val = 499 := by unfold tLast; rfl

/-- What the last point leaves in the output block, as contents of the result array. -/
abbrev result (c : Dev nD) : Buf (Elt Ideal) ((c : Thread nD τ).loc main_v4) := outsAt0 m c tLast.val tLast.isLt

/-- The output window sits on block (0, 0) at every point. -/
theorem idx4 (t : Fin cfg0.N) (a : Fin 2) : win0_4.index t a = 0 := by
  fin_cases a <;> rfl

/-- The one write-back writes the last point's block, which is the whole array: lane by lane, the block's index and
    the array's index are the same pair of coordinates. -/
theorem flushed_eq (c : Dev nD) (t : Fin cfg0.N) (hf : (cfg0.win 4).flush t = true) :
    (dats m 0 c).flushed 4 t = ((cfg0.win 4).blk t).view.read (Elt Ideal) (result m c) := by
  have hN : cfg0.N = 500 := N_0
  have h : t.val = 499 := by have := (flush0_4 t).mp hf; have := t.isLt; omega
  obtain rfl : t = tLast := Fin.ext (h.trans tLast_val.symm)
  show (cfg0.win 4).cut (grid0.coords tLast) ((dats m 0 c).after 4 tLast) = _
  rw [after0_4]
  funext y
  rw [View.read_apply]
  refine Eq.trans ?_ (cast_eq _ _).symm
  refine congrArg (result m c) (funext fun a => Fin.ext ?_)
  show (y a).val = win0_4.index tLast a * win0_4.size a + 1 * (y a).val
  rw [idx4]
  omega

/-- Every lane of the array lies in that block. -/
theorem mem_last (i : S1x256.Idx) : i ∈ ((cfg0.win 4).blk tLast).view.set := by
  show i ∈ ((View.whole main_v4).slice (win0_4.rect tLast)).set
  rw [View.set_slice_whole, Rect.mem_set_unit]
  intro a
  show win0_4.index tLast a * win0_4.size a ≤ (i a : Nat) ∧ (i a : Nat) < win0_4.index tLast a * win0_4.size a + win0_4.xsize (grid0.coords tLast) a
  rw [idx4, Nat.zero_mul, Nat.zero_add]
  refine ⟨Nat.zero_le _, ?_⟩
  match a with
  | ⟨0, _⟩ => exact (i 0).isLt
  | ⟨1, _⟩ => exact (i 1).isLt

/-- So the result array ends holding the last point's block. -/
theorem final_o (c : Dev nD) : (dats m 0 c).arrAt 4 cfg0.N = result m c :=
  (dats m 0 c).arrAt_eq_of_cover 4 (result m c) (flushed_eq m c) fun i =>
    ⟨tLast, (flush0_4 tLast).mpr (by rw [tLast_val]), mem_last i⟩

/-- The program's result buffer: the final scalar formula on the first 250 lanes of the result array. -/
theorem tail_eq (c : Dev nD) :
    Pipeline.afterTail₀ cfgs (dats m) 0 (V0 m) [hostOps1] c main_v14
      = Cert.Spec.tail (shapeCast S250 (extractStridedSlice S1x250 ![0, 0] (result m c) slices_S1x256_S1x250_0_0) shapeCasts_S1x250_S250) := by
  unfold Pipeline.afterTail₀
  show StableHlo.after hostOps1 _ (Proc.devRef .tc main_v14) = _
  after_results
  have hA : Pipeline.withArrays (cfgs 0).spec c (V0 m c) (fun w => (dats m 0 c).arrAt w (cfgs 0).N) (Proc.devRef .tc main_v4)
      = result m c := (Pipeline.withArrays_arr spec0 launch0.win.arr_inj c _ _ 4).trans (final_o m c)
  rw [hA]
  rfl

/-- Lane k < 250 of the kept lanes is lane k of the array. -/
theorem kept_apply (P : S1x256.Idx → EReal) (k : Fin 250) :
    shapeCast S250 (extractStridedSlice S1x250 ![0, 0] P slices_S1x256_S1x250_0_0) shapeCasts_S1x250_S250 (ix1 k)
      = P (ix2 (0 : Fin 1) (⟨k.val, by have := k.isLt; omega⟩ : Fin 256)) := by
  refine (shapeCast_apply _ _ (ix1 k) (ix2 (0 : Fin 1) k) ?_).trans ?_
  · rw [Shape.rowMajor_val_two, Shape.rowMajor_val_one]
    show (0 : ℕ) * 250 + k.val = k.val
    omega
  · refine extractStridedSlice_apply _ _ _ _ _ fun a => ?_
    match a with
    | ⟨0, _⟩ => rfl
    | ⟨1, _⟩ => show k.val = 0 + k.val; omega

end Cert.KernelIdeal.Final

end
-- ==== Proof.KerRun.lean ====
/-
  The idealized kernel's run, read: its result is the final scalar formula on the grouped day totals.
-/
import proofs.«420226_j14431090115064_2_alg».proof.Proof.KerFold
import proofs.«420226_j14431090115064_2_alg».proof.Proof.KerFinal

noncomputable section

open Idealize.ShloMosaic Idealize.ShloMosaic.TcCoe Idealize.SL.Sem Idealize.ShloMosaic.ValueIdx

namespace Cert.KernelIdeal.Run

open Cert.KernelIdeal Cert.KernelIdeal.Gen Cert.Spec Cert.KernelIdeal.Final Cert.KernelIdeal.Fold

variable (m : (ℓ : Loc nD τ sig) → Buf (Elt Ideal) ℓ) (ρ : Dev nD → PrngReg)

/-- Lane k of the block the last point leaves is day k's grouped total. -/
theorem result_apply (c : Dev nD) (k : Fin 256) :
    result m c (ix2 (0 : Fin 1) k)
      = PiK (m ((c : Thread nD τ).loc main_arg0)) (m ((c : Thread nD τ).loc main_arg1)) (m ((c : Thread nD τ).loc main_arg2))
          (m ((c : Thread nD τ).loc main_arg3)) k.val := by
  show outsAt0 m c tLast.val tLast.isLt (ix2 (0 : Fin 1) k) = _
  rw [outsAt_apply m c tLast.val tLast.isLt k, tLast_val]
  exact sum_addend m c k.val

/-- The 250 lanes kept after the region are the grouped day totals. -/
theorem kept_eq (c : Dev nD) :
    shapeCast S250 (extractStridedSlice S1x250 ![0, 0] (result m c) slices_S1x256_S1x250_0_0) shapeCasts_S1x250_S250
      = arrK (m ((c : Thread nD τ).loc main_arg0)) (m ((c : Thread nD τ).loc main_arg1)) (m ((c : Thread nD τ).loc main_arg2))
          (m ((c : Thread nD τ).loc main_arg3)) := by
  funext i
  obtain ⟨k, rfl⟩ : ∃ k : Fin 250, i = ix1 k := ⟨i 0, eq_ix1 i⟩
  rw [kept_apply, result_apply]
  rfl

/-- Every weakly fair execution terminates with the result at the final formula of the grouped totals and the
    arguments unchanged. -/
theorem run : θ_run (defs (F := Ideal)) (onTc (τ := τ) (main (F := Ideal))) ⟨m, fun _ => 0, ρ⟩ (fun r => ∀ c : Dev nD,
      r.2.mem ((c.tc : Thread nD τ).loc main_v14)
          = Cert.Spec.tail (arrK (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v14 (Pipeline.mem_restRefs_of main_v14 (by decide) (by decide))).trans
        ((tail_eq m c).trans (congrArg Cert.Spec.tail (kept_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.RefTerm.lean ====
/-
  The reference program's result as a function of its four argument arrays, stage by stage, and the proof that it is
  the flat form of the per-day weighted sum: the final scalar of the shared specification applied to the day totals
  over the flat indices f < 8,000,000 (tiled position f mod 2,000,000, sample row f / 4, column f mod 4).
-/
import proofs.«420226_j14431090115064_2_alg».proof.ReferenceIdeal
import proofs.«420226_j14431090115064_2_alg».proof.Proof.Gen.ReferenceIdeal
import proofs.«420226_j14431090115064_2_alg».proof.Proof.Spec
import Idealize.ShloMosaic.Lib.ValueIdx
import Idealize.ShloMosaic.Lib.ValueIdxRank1
import Idealize.ShloMosaic.Lib.Pipeline.Value
import Idealize.ShloMosaic.Lib.ValueLayout
import Idealize.ShloMosaic.PureOps.Ideal.Laws

noncomputable section

namespace Cert.ReferenceIdeal.RefTerm

open Idealize.ShloMosaic Idealize.ShloMosaic.ValueIdx Cert.ReferenceIdeal Cert.ReferenceIdeal.Gen

/-! ## The stages -/

/-- The literal column table [0, 1, 2, 3] as a vector of four words. -/
def table : IVec S4 32 := fun i => lit0 (S4.rowMajor i)

/-- The index column: each table word c, replaced by c + 5 where c is negative (none is), as a 4 × 1 array. -/
def column : IVec S4x1 32 :=
  broadcastInDim S4x1 ![0] bcast_S4_S4x1_0
    (select (cmpi .slt table (broadcastInDim S4 ![] bcast_S_S4 (constantI S_ 32 0#32)))
      (addi table (broadcastInDim S4 ![] bcast_S_S4 (constantI S_ 32 5#32))) table)

/-- The four selected columns of a 2,000,000 × 5 array. -/
def pick (A : FVec Ideal S2000000x5 .f32) : FVec Ideal S2000000x4 .f32 :=
  Host.gather gather_S2000000x5_S4x1_S2000000x4_0_1_n_n_1_1_20000001 A column

/-- 1 / (1 + exp (−(12 · x))) entrywise on the selected columns. -/
def sigma (X : FVec Ideal S2000000x5 .f32) : FVec Ideal S2000000x4 .f32 :=
  Host.divf (F := Ideal) (broadcastInDim S2000000x4 ![] bcast_S_S2000000x4 (constant (F := Ideal) S_ .f32 0x3F800000#32))
    (addf (broadcastInDim S2000000x4 ![] bcast_S_S2000000x4 (constant (F := Ideal) S_ .f32 0x3F800000#32))
      (Host.exp (F := Ideal) (Host.negf (F := Ideal)
        (mulf (broadcastInDim S2000000x4 ![] bcast_S_S2000000x4 (constant (F := Ideal) S_ .f32 0x41400000#32)) (pick X)))))

/-- A 2,000,000 × 4 array read row-major as a vector of 8,000,000. -/
def flat (A : FVec Ideal S2000000x4 .f32) : FVec Ideal S8000000 .f32 :=
  shapeCast S8000000 A shapeCasts_S2000000x4_S8000000

/-- A vector of 2,000,000 repeated four times end to end. -/
def tile {α : Type} (V : S2000000.Idx → α) : S8000000.Idx → α :=
  shapeCast S8000000
    (broadcastInDim S4x2000000 ![0, 1] bcast_S1x2000000_S4x2000000_0_1 (shapeCast S1x2000000 V shapeCasts_S2000000_S1x2000000))
    shapeCasts_S4x2000000_S8000000

/-- The update vector: tiled weight · flat target · flat σ. -/
def upd (X T : FVec Ideal S2000000x5 .f32) (W : FVec Ideal S2000000 .f32) : FVec Ideal S8000000 .f32 :=
  mulf (mulf (tile W) (flat (pick T))) (flat (sigma X))

/-- The scatter's index array: the tiled day vector as an 8,000,000 × 1 array. -/
def dayIdx (D : IVec S2000000 32) : IVec S8000000x1 32 :=
  broadcastInDim S8000000x1 ![0] bcast_S8000000_S8000000x1_0 (tile D)

/-- The 250 day totals: zero plus, for each day, the updates whose tiled day is that day. -/
def pi (X T : FVec Ideal S2000000x5 .f32) (W : FVec Ideal S2000000 .f32) (D : IVec S2000000 32) : FVec Ideal S250 .f32 :=
  Host.scatterAdd (F := Ideal) scatter_S250_S8000000x1_S8000000_n_0_0_1
    (broadcastInDim S250 ![] bcast_S_S250 (constant (F := Ideal) S_ .f32 0x00000000#32)) (dayIdx D) (upd X T W)

/-- The sum of the 250 day totals. -/
def tot (P : FVec Ideal S250 .f32) : FVec Ideal S_ .f32 :=
  Host.reduceAdd (F := Ideal) P (constant (F := Ideal) S_ .f32 0x00000000#32) reducesTo_S250_S_d0 h_S_

/-- The final scalar from the day totals: −1 · s · max(s, 0) / Σ P² / 250 with s = Σ P. -/
def fin (P : FVec Ideal S250 .f32) : FVec Ideal S_ .f32 :=
  Host.divf (F := Ideal)
    (Host.divf (F := Ideal)
      (mulf (mulf (constant (F := Ideal) S_ .f32 0xBF800000#32) (tot P)) (maximumf (tot P) (constant (F := Ideal) S_ .f32 0x00000000#32)))
      (Host.reduceAdd (F := Ideal) (mulf P P) (constant (F := Ideal) S_ .f32 0x00000000#32) reducesTo_S250_S_d0 h_S_))
    (constant (F := Ideal) S_ .f32 0x437A0000#32)

/-- The program's operations composed: its result as a function of the four arguments. -/
def out (X T : FVec Ideal S2000000x5 .f32) (W : FVec Ideal S2000000 .f32) (D : IVec S2000000 32) : FVec Ideal S_ .f32 :=
  fin (pi X T W D)

/-! ## Each stage read at an index -/

/-- The index column holds the word c at row c. -/
theorem column_apply (c : Fin 4) : column (ix2 c 0) = BitVec.ofNat 32 c.val := by
  fin_cases c <;> rfl

local notation "gd" => gather_S2000000x5_S4x1_S2000000x4_0_1_n_n_1_1_20000001
local notation "sd" => scatter_S250_S8000000x1_S8000000_n_0_0_1

/-- The start-indices index a result index (n, c) reads its one start component at: row c of the column. -/
theorem gd_siIdx (n : Fin 2000000) (c : Fin 4) (k : Fin (gd).startIndexMap.length) :
    (gd).siIdx (ix2 n c) k = ix2 c 0 := by
  funext b; refine Fin.ext ?_
  match b with
  | ⟨0, _⟩ => rfl
  | ⟨1, _⟩ =>
    have h : k.val < 1 := k.isLt
    show k.val = 0
    omega

/-- The selected columns read at (n, c): the array at row n, column c (the start on the column axis is the word c,
    inside [0, 4]; the row axis is the whole slice, read at its offset n). -/
theorem pick_apply (A : FVec Ideal S2000000x5 .f32) (n : Fin 2000000) (c : Fin 4) :
    pick A (ix2 n c) = A (ix2 n (Cert.Spec.col c)) := by
  unfold pick Host.gather
  refine congrArg A (funext fun a => Fin.ext ?_)
  match a with
  | ⟨0, _⟩ =>
    show (gd).start (ix2 n c) column 0 + (gd).batchCoord (ix2 n c) 0 + (gd).offCoord (ix2 n c) 0 = n.val
    rw [GatherDims.batchCoord_eq_zero _ _ _ List.not_mem_nil]
    have hs : (gd).start (ix2 n c) column 0 = 0 := by
      unfold GatherDims.start
      rw [dif_neg (by decide)]
    have ho : (gd).offCoord (ix2 n c) 0 = n.val := by
      unfold GatherDims.offCoord
      rw [dif_pos (by decide)]
      rfl
    rw [hs, ho]; omega
  | ⟨1, _⟩ =>
    show (gd).start (ix2 n c) column 1 + (gd).batchCoord (ix2 n c) 1 + (gd).offCoord (ix2 n c) 1 = c.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ (gd).startIndexMap from List.mem_singleton.mpr rfl), gd_siIdx, column_apply]
    show min (BitVec.ofNat 32 c.val).toInt.toNat (5 - 1) + 0 + 0 = c.val
    fin_cases c <;> rfl

/-- The word 0x3F800000 is the real number one. -/
theorem one_f32 : Ideal.ofBits .f32 0x3F800000#32 = 1 := by
  simp [Ideal.ofBits, Ideal.ieee, -EReal.coe_mul]; norm_num

/-- σ read at (n, c): the logistic function of twelve times the entry at row n, column c. -/
theorem sigma_apply (X : FVec Ideal S2000000x5 .f32) (n : Fin 2000000) (c : Fin 4) :
    sigma X (ix2 n c) = Cert.Spec.sg (X (ix2 n (Cert.Spec.col c))) := by
  have h : sigma X (ix2 n c)
      = Ideal.div (Ideal.ofBits .f32 0x3F800000#32)
          (Ideal.ofBits .f32 0x3F800000#32 + Ideal.exp (-(Ideal.ofBits .f32 0x41400000#32 * pick X (ix2 n c)))) := rfl
  rw [h, pick_apply, one_f32]
  rfl

/-- A row-major flattening read at f: the entry at row f / 4, column f mod 4. -/
theorem flat_apply (A : FVec Ideal S2000000x4 .f32) (f : Fin 8000000) :
    flat A (ix1 f) = A (ix2 ⟨f.val / 4, by omega⟩ ⟨f.val % 4, by omega⟩) := by
  unfold flat
  refine shapeCast_apply A _ _ _ ?_
  rw [Shape.rowMajor_val_two, Shape.rowMajor_val_one]
  show f.val / 4 * 4 + f.val % 4 = f.val
  omega

/-- The four-fold tiling read at f: the vector at f mod 2,000,000. -/
theorem tile_apply {α : Type} (V : S2000000.Idx → α) (f : Fin 8000000) :
    tile V (ix1 f) = V (ix1 (Cert.Spec.fpos f)) := by
  unfold tile
  refine (shapeCast_apply _ _ (ix1 f) (ix2 ⟨f.val / 2000000, by omega⟩ ⟨f.val % 2000000, by omega⟩) ?_).trans ?_
  · rw [Shape.rowMajor_val_two, Shape.rowMajor_val_one]
    show f.val / 2000000 * 2000000 + f.val % 2000000 = f.val
    omega
  refine (broadcastInDim_apply _ _ _ _ (ix2 0 ⟨f.val % 2000000, by omega⟩) ?_).trans ?_
  · intro a
    match a with
    | ⟨0, _⟩ => rfl
    | ⟨1, _⟩ => rfl
  refine shapeCast_apply V _ _ _ ?_
  rw [Shape.rowMajor_val_two, Shape.rowMajor_val_one]
  show f.val % 2000000 = 0 * 2000000 + f.val % 2000000
  omega

/-- The update at flat index f: weight at f mod 2,000,000 times target times σ at (row f / 4, column f mod 4). -/
theorem upd_apply (X T : FVec Ideal S2000000x5 .f32) (W : FVec Ideal S2000000 .f32) (f : Fin 8000000) :
    upd X T W (ix1 f)
      = (W (ix1 (Cert.Spec.fpos f)) * T (ix2 (Cert.Spec.frow f) (Cert.Spec.fcol f)))
          * Cert.Spec.sg (X (ix2 (Cert.Spec.frow f) (Cert.Spec.fcol f))) := by
  unfold upd
  rw [mulf_apply, mulf_apply, tile_apply, flat_apply, flat_apply, pick_apply, sigma_apply]
  rfl

/-- The scatter's index array at (f, 0): the day word at f mod 2,000,000. -/
theorem dayIdx_apply (D : IVec S2000000 32) (f : Fin 8000000) :
    dayIdx D (ix2 f 0) = D (ix1 (Cert.Spec.fpos f)) := by
  unfold dayIdx
  refine (broadcastInDim_apply _ _ _ _ (ix1 f) ?_).trans (tile_apply D f)
  intro a
  match a with
  | ⟨0, _⟩ => rfl

/-! ## The scatter: which updates reach day k -/

/-- The scatter-indices index update f reads its one start component at: (f, 0). -/
theorem sd_siIdx (f : Fin 8000000) (k : Fin (sd).scatterDimsToOperandDims.length) :
    (sd).siIdx (ix1 f) k = ix2 f 0 := by
  funext b; refine Fin.ext ?_
  match b with
  | ⟨0, _⟩ => rfl
  | ⟨1, _⟩ =>
    have h : k.val < 1 := k.isLt
    show k.val = 0
    omega

/-- The start of update f on the one operand axis: the index word at (f, 0), read signed. -/
theorem sd_start (idx : IVec S8000000x1 32) (f : Fin 8000000) : (sd).start (ix1 f) idx 0 = (idx (ix2 f 0)).toInt := by
  unfold ScatterDims.start
  rw [dif_pos (show (0 : Fin 1) ∈ (sd).scatterDimsToOperandDims from List.mem_singleton.mpr rfl), sd_siIdx]

/-- No window axis: the window coordinate is zero. -/
theorem sd_window (f : Fin 8000000) : (sd).window (ix1 f) 0 = 0 := by
  unfold ScatterDims.window
  rw [dif_neg (by decide)]

/-- Update f lands at day k exactly when its index word, read signed, is k. -/
theorem sd_resultIdx (idx : IVec S8000000x1 32) (f : Fin 8000000) (k : Fin 250) :
    (sd).resultIdx? (ix1 f) idx = some (ix1 k) ↔ (idx (ix2 f 0)).toInt = (k.val : ℤ) := by
  unfold ScatterDims.resultIdx?
  constructor
  · intro h
    split at h
    · rename_i hh
      have h0 := congrFun (Option.some.inj h) 0
      have hv : ((sd).start (ix1 f) idx 0 + ((sd).window (ix1 f) 0 : ℤ)).toNat = k.val := congrArg Fin.val h0
      have h1 := (hh 0).1
      rw [sd_start, sd_window] at hv h1
      omega
    · exact absurd h (by simp)
  · intro h
    have hk := k.isLt
    have hh : ∀ a, 0 ≤ (sd).start (ix1 f) idx a + ((sd).window (ix1 f) a : ℤ)
        ∧ (sd).start (ix1 f) idx a + ((sd).window (ix1 f) a : ℤ) < (S250.size a : ℤ) := by
      intro a
      obtain rfl : a = 0 := Subsingleton.elim _ _
      rw [sd_start, sd_window, h]
      show 0 ≤ (k.val : ℤ) + ((0 : ℕ) : ℤ) ∧ (k.val : ℤ) + ((0 : ℕ) : ℤ) < ((250 : ℕ) : ℤ)
      omega
    rw [dif_pos hh]
    congr 1
    funext a
    obtain rfl : a = 0 := Subsingleton.elim _ _
    refine Fin.ext ?_
    show ((sd).start (ix1 f) idx 0 + ((sd).window (ix1 f) 0 : ℤ)).toNat = k.val
    rw [sd_start, sd_window, h]; omega

/-- An accumulating scatter read at i: the operand there plus the updates whose result index is i. -/
theorem scatterAdd_apply {s si u : Shape} {w : Nat} (d : ScatterDims s si u) (x : FVec Ideal s .f32) (idx : IVec si w)
    (v : FVec Ideal u .f32) (i : s.Idx) :
    Host.scatterAdd (F := Ideal) d x idx v i
      = x i + ∑ j ∈ Finset.univ.filter (fun j => d.resultIdx? j idx = some i), v j := rfl

/-- Day k's total: the sum of the updates whose tiled day word, read signed, is k — the flat form of the specification. -/
theorem pi_apply (X T : FVec Ideal S2000000x5 .f32) (W : FVec Ideal S2000000 .f32) (D : IVec S2000000 32) (k : Fin 250) :
    pi X T W D (ix1 k) = Cert.Spec.PiR X T W D k.val := by
  unfold pi
  refine (scatterAdd_apply _ _ _ _ _).trans ?_
  have hz : (broadcastInDim S250 ![] bcast_S_S250 (constant (F := Ideal) S_ .f32 0x00000000#32)) (ix1 k) = 0 :=
    Ideal.ofBits_zero_f32
  rw [hz, zero_add]
  unfold Cert.Spec.PiR
  refine Finset.sum_equiv idxEquiv1 ?_ ?_
  · intro j
    obtain ⟨f, rfl⟩ : ∃ f, j = ix1 f := ⟨j 0, eq_ix1 j⟩
    rw [Finset.mem_filter, Finset.mem_filter, sd_resultIdx, dayIdx_apply]
    exact ⟨fun h => ⟨Finset.mem_univ _, h.2⟩, fun h => ⟨Finset.mem_univ _, h.2⟩⟩
  · intro j _
    obtain ⟨f, rfl⟩ : ∃ f, j = ix1 f := ⟨j 0, eq_ix1 j⟩
    exact upd_apply X T W f
/-! ## The result -/

/-- The program's result is the specification's final scalar of the flat-form day totals. -/
theorem out_eq (X T : FVec Ideal S2000000x5 .f32) (W : FVec Ideal S2000000 .f32) (D : IVec S2000000 32) :
    out X T W D = Cert.Spec.tail (Cert.Spec.arrR X T W D) := by
  have hpi : pi X T W D = Cert.Spec.arrR X T W D := by
    funext i
    obtain ⟨k, rfl⟩ : ∃ k, i = ix1 k := ⟨i 0, eq_ix1 i⟩
    exact pi_apply X T W D k
  unfold out
  rw [hpi]
  rfl

end Cert.ReferenceIdeal.RefTerm

end
-- ==== Proof.RefRun.lean ====
/-
  The reference program's run: its 57 operations as a list, and from any memory with zero counters every weakly fair
  execution ends with the result buffer at the operations' composed function of the four argument buffers, the
  arguments unchanged.
-/
import proofs.«420226_j14431090115064_2_alg».proof.ReferenceIdeal
import proofs.«420226_j14431090115064_2_alg».proof.Proof.Gen.ReferenceIdeal
import proofs.«420226_j14431090115064_2_alg».proof.Proof.RefTerm
import Idealize.ShloMosaic.Lib.StableHlo.Run
import Idealize.ShloMosaic.Lib.Tactic

noncomputable section

namespace Cert.ReferenceIdeal.RefRun

open Idealize.ShloMosaic Idealize.SL.Sem Cert.ReferenceIdeal
open Cert.ReferenceIdeal.Gen Idealize.ShloMosaic.TcCoe Idealize.ShloMosaic.StableHlo

variable {F : FTy → Type} [FloatOps F]

/-- The program's 57 operations, in order. -/
abbrev ops : List (HloOp τ sig (Elt F)) :=
  [ StableHlo.nullary main_c (fun i => lit0 (S4.rowMajor i)),
    StableHlo.nullary main_c_0 (constantI S_ 32 0#32),
    StableHlo.unary main_c_0 main_v0 (broadcastInDim S4 ![] bcast_S_S4 : (⟨S_, .i32⟩ : BufTy).Contents (Elt F) → (⟨S4, .i32⟩ : BufTy).Contents (Elt F)),
    StableHlo.binary main_c main_v0 main_v1 (cmpi .slt : (⟨S4, .i32⟩ : BufTy).Contents (Elt F) → (⟨S4, .i32⟩ : BufTy).Contents (Elt F) → (⟨S4, .i1⟩ : BufTy).Contents (Elt F)),
    StableHlo.nullary main_c_1 (constantI S_ 32 5#32),
    StableHlo.unary main_c_1 main_v2 (broadcastInDim S4 ![] bcast_S_S4 : (⟨S_, .i32⟩ : BufTy).Contents (Elt F) → (⟨S4, .i32⟩ : BufTy).Contents (Elt F)),
    StableHlo.binary main_c main_v2 main_v3 (addi : (⟨S4, .i32⟩ : BufTy).Contents (Elt F) → (⟨S4, .i32⟩ : BufTy).Contents (Elt F) → (⟨S4, .i32⟩ : BufTy).Contents (Elt F)),
    StableHlo.ternary main_v1 main_v3 main_c main_v4 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v4 main_v5 (broadcastInDim S4x1 ![0] bcast_S4_S4x1_0 : (⟨S4, .i32⟩ : BufTy).Contents (Elt F) → (⟨S4x1, .i32⟩ : BufTy).Contents (Elt F)),
    StableHlo.binary main_arg0 main_v5 main_v6 ((fun x i => Host.gather gather_S2000000x5_S4x1_S2000000x4_0_1_n_n_1_1_20000001 x i) : (⟨S2000000x5, .f32⟩ : BufTy).Contents (Elt F) → (⟨S4x1, .i32⟩ : BufTy).Contents (Elt F) → (⟨S2000000x4, .f32⟩ : BufTy).Contents (Elt F)),
    StableHlo.nullary main_cst (constant S_ .f32 0x41400000#32),
    StableHlo.unary main_cst main_v7 (broadcastInDim S2000000x4 ![] bcast_S_S2000000x4 : (⟨S_, .f32⟩ : BufTy).Contents (Elt F) → (⟨S2000000x4, .f32⟩ : BufTy).Contents (Elt F)),
    StableHlo.binary main_v7 main_v6 main_v8 (mulf : (⟨S2000000x4, .f32⟩ : BufTy).Contents (Elt F) → (⟨S2000000x4, .f32⟩ : BufTy).Contents (Elt F) → (⟨S2000000x4, .f32⟩ : BufTy).Contents (Elt F)),
    StableHlo.unary main_v8 main_v9 (Host.negf : (⟨S2000000x4, .f32⟩ : BufTy).Contents (Elt F) → (⟨S2000000x4, .f32⟩ : BufTy).Contents (Elt F)),
    StableHlo.unary main_v9 main_v10 (Host.exp : (⟨S2000000x4, .f32⟩ : BufTy).Contents (Elt F) → (⟨S2000000x4, .f32⟩ : BufTy).Contents (Elt F)),
    StableHlo.nullary main_cst_2 (constant S_ .f32 0x3F800000#32),
    StableHlo.unary main_cst_2 main_v11 (broadcastInDim S2000000x4 ![] bcast_S_S2000000x4 : (⟨S_, .f32⟩ : BufTy).Contents (Elt F) → (⟨S2000000x4, .f32⟩ : BufTy).Contents (Elt F)),
    StableHlo.binary main_v11 main_v10 main_v12 (addf : (⟨S2000000x4, .f32⟩ : BufTy).Contents (Elt F) → (⟨S2000000x4, .f32⟩ : BufTy).Contents (Elt F) → (⟨S2000000x4, .f32⟩ : BufTy).Contents (Elt F)),
    StableHlo.nullary main_cst_3 (constant S_ .f32 0x3F800000#32),
    StableHlo.unary main_cst_3 main_v13 (broadcastInDim S2000000x4 ![] bcast_S_S2000000x4 : (⟨S_, .f32⟩ : BufTy).Contents (Elt F) → (⟨S2000000x4, .f32⟩ : BufTy).Contents (Elt F)),
    StableHlo.binary main_v13 main_v12 main_v14 (Host.divf : (⟨S2000000x4, .f32⟩ : BufTy).Contents (Elt F) → (⟨S2000000x4, .f32⟩ : BufTy).Contents (Elt F) → (⟨S2000000x4, .f32⟩ : BufTy).Contents (Elt F)),
    StableHlo.nullary main_c_4 (constantI S_ 32 0#32),
    StableHlo.unary main_c_4 main_v15 (broadcastInDim S4 ![] bcast_S_S4 : (⟨S_, .i32⟩ : BufTy).Contents (Elt F) → (⟨S4, .i32⟩ : BufTy).Contents (Elt F)),
    StableHlo.binary main_c main_v15 main_v16 (cmpi .slt : (⟨S4, .i32⟩ : BufTy).Contents (Elt F) → (⟨S4, .i32⟩ : BufTy).Contents (Elt F) → (⟨S4, .i1⟩ : BufTy).Contents (Elt F)),
    StableHlo.nullary main_c_5 (constantI S_ 32 5#32),
    StableHlo.unary main_c_5 main_v17 (broadcastInDim S4 ![] bcast_S_S4 : (⟨S_, .i32⟩ : BufTy).Contents (Elt F) → (⟨S4, .i32⟩ : BufTy).Contents (Elt F)),
    StableHlo.binary main_c main_v17 main_v18 (addi : (⟨S4, .i32⟩ : BufTy).Contents (Elt F) → (⟨S4, .i32⟩ : BufTy).Contents (Elt F) → (⟨S4, .i32⟩ : BufTy).Contents (Elt F)),
    StableHlo.ternary main_v16 main_v18 main_c main_v19 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v19 main_v20 (broadcastInDim S4x1 ![0] bcast_S4_S4x1_0 : (⟨S4, .i32⟩ : BufTy).Contents (Elt F) → (⟨S4x1, .i32⟩ : BufTy).Contents (Elt F)),
    StableHlo.binary main_arg1 main_v20 main_v21 ((fun x i => Host.gather gather_S2000000x5_S4x1_S2000000x4_0_1_n_n_1_1_20000001 x i) : (⟨S2000000x5, .f32⟩ : BufTy).Contents (Elt F) → (⟨S4x1, .i32⟩ : BufTy).Contents (Elt F) → (⟨S2000000x4, .f32⟩ : BufTy).Contents (Elt F)),
    StableHlo.reshape main_v14 main_v22 rfl shapeCasts_S2000000x4_S8000000,
    StableHlo.reshape main_v21 main_v23 rfl shapeCasts_S2000000x4_S8000000,
    StableHlo.reshape main_arg2 main_v24 rfl shapeCasts_S2000000_S1x2000000,
    StableHlo.unary main_v24 main_v25 (broadcastInDim S4x2000000 ![0, 1] bcast_S1x2000000_S4x2000000_0_1 : (⟨S1x2000000, .f32⟩ : BufTy).Contents (Elt F) → (⟨S4x2000000, .f32⟩ : BufTy).Contents (Elt F)),
    StableHlo.reshape main_v25 main_v26 rfl shapeCasts_S4x2000000_S8000000,
    StableHlo.reshape main_arg3 main_v27 rfl shapeCasts_S2000000_S1x2000000,
    StableHlo.unary main_v27 main_v28 (broadcastInDim S4x2000000 ![0, 1] bcast_S1x2000000_S4x2000000_0_1 : (⟨S1x2000000, .i32⟩ : BufTy).Contents (Elt F) → (⟨S4x2000000, .i32⟩ : BufTy).Contents (Elt F)),
    StableHlo.reshape main_v28 main_v29 rfl shapeCasts_S4x2000000_S8000000,
    StableHlo.binary main_v26 main_v23 main_v30 (mulf : (⟨S8000000, .f32⟩ : BufTy).Contents (Elt F) → (⟨S8000000, .f32⟩ : BufTy).Contents (Elt F) → (⟨S8000000, .f32⟩ : BufTy).Contents (Elt F)),
    StableHlo.binary main_v30 main_v22 main_v31 (mulf : (⟨S8000000, .f32⟩ : BufTy).Contents (Elt F) → (⟨S8000000, .f32⟩ : BufTy).Contents (Elt F) → (⟨S8000000, .f32⟩ : BufTy).Contents (Elt F)),
    StableHlo.nullary main_cst_6 (constant S_ .f32 0x00000000#32),
    StableHlo.unary main_cst_6 main_v32 (broadcastInDim S250 ![] bcast_S_S250 : (⟨S_, .f32⟩ : BufTy).Contents (Elt F) → (⟨S250, .f32⟩ : BufTy).Contents (Elt F)),
    StableHlo.unary main_v29 main_v33 (broadcastInDim S8000000x1 ![0] bcast_S8000000_S8000000x1_0 : (⟨S8000000, .i32⟩ : BufTy).Contents (Elt F) → (⟨S8000000x1, .i32⟩ : BufTy).Contents (Elt F)),
    StableHlo.ternary main_v32 main_v33 main_v31 main_v34 ((fun x i u => Host.scatterAdd scatter_S250_S8000000x1_S8000000_n_0_0_1 x i u) : (⟨S250, .f32⟩ : BufTy).Contents (Elt F) → (⟨S8000000x1, .i32⟩ : BufTy).Contents (Elt F) → (⟨S8000000, .f32⟩ : BufTy).Contents (Elt F) → (⟨S250, .f32⟩ : BufTy).Contents (Elt F)),
    StableHlo.nullary main_cst_7 (constant S_ .f32 0x00000000#32),
    StableHlo.binary main_v34 main_cst_7 main_v35 ((fun x v => Host.reduceAdd x v reducesTo_S250_S_d0 h_S_) : (⟨S250, .f32⟩ : BufTy).Contents (Elt F) → (⟨S_, .f32⟩ : BufTy).Contents (Elt F) → (⟨S_, .f32⟩ : BufTy).Contents (Elt F)),
    StableHlo.nullary main_cst_8 (constant S_ .f32 0xBF800000#32),
    StableHlo.binary main_cst_8 main_v35 main_v36 (mulf : (⟨S_, .f32⟩ : BufTy).Contents (Elt F) → (⟨S_, .f32⟩ : BufTy).Contents (Elt F) → (⟨S_, .f32⟩ : BufTy).Contents (Elt F)),
    StableHlo.nullary main_cst_9 (constant S_ .f32 0x00000000#32),
    StableHlo.binary main_v35 main_cst_9 main_v37 (maximumf : (⟨S_, .f32⟩ : BufTy).Contents (Elt F) → (⟨S_, .f32⟩ : BufTy).Contents (Elt F) → (⟨S_, .f32⟩ : BufTy).Contents (Elt F)),
    StableHlo.binary main_v36 main_v37 main_v38 (mulf : (⟨S_, .f32⟩ : BufTy).Contents (Elt F) → (⟨S_, .f32⟩ : BufTy).Contents (Elt F) → (⟨S_, .f32⟩ : BufTy).Contents (Elt F)),
    StableHlo.binary main_v34 main_v34 main_v39 (mulf : (⟨S250, .f32⟩ : BufTy).Contents (Elt F) → (⟨S250, .f32⟩ : BufTy).Contents (Elt F) → (⟨S250, .f32⟩ : BufTy).Contents (Elt F)),
    StableHlo.nullary main_cst_10 (constant S_ .f32 0x00000000#32),
    StableHlo.binary main_v39 main_cst_10 main_v40 ((fun x v => Host.reduceAdd x v reducesTo_S250_S_d0 h_S_) : (⟨S250, .f32⟩ : BufTy).Contents (Elt F) → (⟨S_, .f32⟩ : BufTy).Contents (Elt F) → (⟨S_, .f32⟩ : BufTy).Contents (Elt F)),
    StableHlo.binary main_v38 main_v40 main_v41 (Host.divf : (⟨S_, .f32⟩ : BufTy).Contents (Elt F) → (⟨S_, .f32⟩ : BufTy).Contents (Elt F) → (⟨S_, .f32⟩ : BufTy).Contents (Elt F)),
    StableHlo.nullary main_cst_11 (constant S_ .f32 0x437A0000#32),
    StableHlo.binary main_v41 main_cst_11 main_v42 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., reshape_bufs_sub .., reshape_bufs_sub .., unary_bufs_sub .., reshape_bufs_sub .., reshape_bufs_sub .., unary_bufs_sub .., reshape_bufs_sub .., binary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., binary_bufs_sub .., binary_bufs_sub .., nullary_bufs_sub .., binary_bufs_sub .., binary_bufs_sub .., nullary_bufs_sub .., binary_bufs_sub ..⟩

/-- From any memory with zero counters every weakly fair execution of the program terminates with the result buffer at
    the composed function of the argument buffers and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42)
          = Cert.ReferenceIdeal.RefTerm.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ h c => ⟨(h c main_v42).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq (defs (F := Ideal)) (main (F := Ideal)) (fun _ => ops) main_eq (fun _ => ops_sub) m ρ)

end Cert.ReferenceIdeal.RefRun

end
-- ==== Proof.SpecLaw.lean ====
/-
  The one algebraic law of the per-day weighted sum: the grouped and the flat day totals are equal when the arrays
  hold real numbers.

  A flat index f < 8,000,000 is written uniquely as f = 4·(q·500000 + n) + j with q < 4, n < 500000, j < 4, and
  n = 1000·t + r with t < 500, r < 1000. For such an f the sample row f / 4 is q·500000 + n, the column f mod 4 is j,
  and, because 4n + j < 2,000,000, the tiled position f mod 2,000,000 is 4n + j. So the flat sum, re-indexed along
  (t, j, r, q) ↦ f, is a fourfold sum whose innermost sum runs over q with the weight and the day fixed. A 32-bit day
  word reads, as a signed number, a day k < 250 exactly when it is the word of k, so the flat form's filter is the
  grouped form's indicator. What is left is to move the weight inside the sum over q, which is the distributive law:
  it holds on the extended reals for real entries (σ of a real is real), and that is the only use of the hypotheses.
-/
import proofs.«420226_j14431090115064_2_alg».proof.Proof.Spec
import Idealize.ShloMosaic.PureOps.Ideal
import Idealize.ShloMosaic.Lib.ValueIdx
import Mathlib.Data.EReal.Basic
import Mathlib.Analysis.Complex.Exponential
import Mathlib.Data.Fintype.BigOperators
import Mathlib.Algebra.BigOperators.Group.Finset.Defs
import Mathlib.Algebra.BigOperators.Group.Finset.Basic
import Mathlib.Algebra.BigOperators.Ring.Finset

noncomputable section

namespace Cert.Spec

open Idealize.ShloMosaic Idealize.ShloMosaic.ValueIdx

/-! ## The flat index from its four digits -/

/-- The flat index 4·(q·500000 + n) + j. -/
def flat (q : Fin 4) (n : Fin 500000) (j : Fin 4) : Fin 8000000 :=
  ⟨4 * (q.val * 500000 + n.val) + j.val, by have := q.isLt; have := n.isLt; have := j.isLt; omega⟩

/-- Its sample row is row (q, n). -/
theorem frow_flat (q : Fin 4) (n : Fin 500000) (j : Fin 4) : frow (flat q n j) = row q n := by
  apply Fin.ext
  have := j.isLt
  show (4 * (q.val * 500000 + n.val) + j.val) / 4 = q.val * 500000 + n.val
  omega

/-- Its column is j. -/
theorem fcol_flat (q : Fin 4) (n : Fin 500000) (j : Fin 4) : fcol (flat q n j) = col j := by
  apply Fin.ext
  have := j.isLt
  show (4 * (q.val * 500000 + n.val) + j.val) % 4 = j.val
  omega

/-- Its tiled position is 4n + j: the multiple q·2,000,000 drops out modulo 2,000,000. -/
theorem fpos_flat (q : Fin 4) (n : Fin 500000) (j : Fin 4) : fpos (flat q n j) = pos n j := by
  apply Fin.ext
  have := j.isLt
  have := n.isLt
  show (4 * (q.val * 500000 + n.val) + j.val) % 2000000 = 4 * n.val + j.val
  omega

/-- The digits (t, j, r, q) of a flat index, as a bijection: f = q·2,000,000 + t·4000 + r·4 + j. -/
def digits : (Fin 500 × Fin 4 × Fin 1000 × Fin 4) ≃ Fin 8000000 where
  toFun p := flat p.2.2.2 (brow p.1 p.2.2.1) p.2.1
  invFun f :=
    (⟨f.val % 2000000 / 4000, by have := f.isLt; omega⟩, ⟨f.val % 4, by omega⟩,
      ⟨f.val % 4000 / 4, by omega⟩, ⟨f.val / 2000000, by have := f.isLt; omega⟩)
  left_inv := by
    rintro ⟨t, j, r, q⟩
    have := t.isLt; have := j.isLt; have := r.isLt; have := q.isLt
    simp only [flat, brow, Prod.mk.injEq, Fin.ext_iff]
    refine ⟨?_, ?_, ?_, ?_⟩ <;> omega
  right_inv := by
    intro f
    have := f.isLt
    simp only [flat, brow, Fin.ext_iff]
    omega

/-- A sum over the flat indices is the fourfold sum over stretches, columns, rows of a stretch and row groups. -/
theorem sum_flat {M : Type*} [AddCommMonoid M] (g : Fin 8000000 → M) :
    ∑ f : Fin 8000000, g f
      = ∑ t : Fin 500, ∑ j : Fin 4, ∑ r : Fin 1000, ∑ q : Fin 4, g (flat q (brow t r) j) := by
  rw [← Equiv.sum_comp digits g]
  simp only [Fintype.sum_prod_type]
  rfl

/-! ## The day word -/

/-- A 32-bit word reads, signed, as a day k < 250 exactly when it is the word of k. -/
theorem toInt_eq_iff (d : BitVec 32) (k : ℕ) (hk : k < 250) : d.toInt = (k : ℤ) ↔ d = BitVec.ofNat 32 k := by
  have hd := d.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega

/-! ## The distributive law for real entries -/

/-- A finite sum of reals, read in the extended reals, is the sum of the entries read there. -/
theorem coe_sum {ι : Type*} (s : Finset ι) (a : ι → ℝ) :
    ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- A real factor goes inside a finite sum of reals, in the extended reals. -/
theorem sum_mul_coe {ι : Type*} (s : Finset ι) (a : ι → ℝ) (w : ℝ) :
    (∑ i ∈ s, (a i : EReal)) * (w : EReal) = ∑ i ∈ s, (a i : EReal) * (w : EReal) := by
  rw [← coe_sum, ← EReal.coe_mul, Finset.sum_mul, coe_sum]
  exact Finset.sum_congr rfl fun i _ => EReal.coe_mul _ _

/-- σ(12·x) of a real x is a real. -/
theorem sg_coe (x : ℝ) : ∃ s : ℝ, sg (x : EReal) = (s : EReal) := by
  obtain ⟨c, hc⟩ : ∃ c : ℝ, Ideal.ofBits .f32 0x41400000#32 = (c : EReal) :=
    ⟨12, by simp [Ideal.ofBits, Ideal.ieee, -EReal.coe_mul]; norm_num⟩
  refine ⟨(1 + Real.exp (-(c * x)))⁻¹, ?_⟩
  rw [sg, hc, ← EReal.coe_mul, Ideal.logistic_coe]

/-! ## The law -/

/-- One position's grouped term against the flat terms of its four row groups. -/
theorem term_eq (X T : SA.Idx → EReal) (W : SV.Idx → EReal) (D : SV.Idx → BitVec 32)
    (hX : ∀ i, ∃ r : ℝ, X i = (r : EReal)) (hT : ∀ i, ∃ r : ℝ, T i = (r : EReal)) (hW : ∀ i, ∃ r : ℝ, W i = (r : EReal))
    (k : ℕ) (hk : k < 250) (n : Fin 500000) (j : Fin 4) :
    val X T W n j * hot (D (ix1 (pos n j))) k
      = ∑ q : Fin 4, if (D (ix1 (fpos (flat q n j)))).toInt = (k : ℤ) then
          (W (ix1 (fpos (flat q n j))) * T (ix2 (frow (flat q n j)) (fcol (flat q n j))))
            * sg (X (ix2 (frow (flat q n j)) (fcol (flat q n j))))
        else 0 := by
  simp only [frow_flat, fcol_flat, fpos_flat, toInt_eq_iff _ k hk]
  obtain ⟨w, hw⟩ := hW (ix1 (pos n j))
  have ha : ∀ q : Fin 4, ∃ a : ℝ,
      sg (X (ix2 (row q n) (col j))) * T (ix2 (row q n) (col j)) = (a : EReal) := by
    intro q
    obtain ⟨x, hx⟩ := hX (ix2 (row q n) (col j))
    obtain ⟨t, ht⟩ := hT (ix2 (row q n) (col j))
    obtain ⟨s, hs⟩ := sg_coe x
    exact ⟨s * t, by rw [hx, ht, hs, EReal.coe_mul]⟩
  choose a ha using ha
  by_cases hd : D (ix1 (pos n j)) = BitVec.ofNat 32 k
  · simp only [hd, if_true, hot, val, mul_one]
    simp only [ha, hw]
    rw [sum_mul_coe]
    refine Finset.sum_congr rfl fun q _ => ?_
    rw [← ha q, ← hw, mul_comm _ (W _), mul_comm (sg _) (T _), mul_assoc]
  · simp only [hd, if_false, hot, mul_zero, Finset.sum_const_zero]

theorem PiK_eq_PiR (X T : SA.Idx → EReal) (W : SV.Idx → EReal) (D : SV.Idx → BitVec 32)
    (hX : ∀ i, ∃ r : ℝ, X i = (r : EReal)) (hT : ∀ i, ∃ r : ℝ, T i = (r : EReal)) (hW : ∀ i, ∃ r : ℝ, W i = (r : EReal))
    (k : ℕ) (hk : k < 250) : PiK X T W D k = PiR X T W D k := by
  rw [PiR, Finset.sum_filter, sum_flat, PiK]
  refine Finset.sum_congr rfl fun t _ => Finset.sum_congr rfl fun j _ => Finset.sum_congr rfl fun r _ => ?_
  exact term_eq X T W D hX hT hW k hk (brow t r) j

theorem arrK_eq_arrR (X T : SA.Idx → EReal) (W : SV.Idx → EReal) (D : SV.Idx → BitVec 32)
    (hX : ∀ i, ∃ r : ℝ, X i = (r : EReal)) (hT : ∀ i, ∃ r : ℝ, T i = (r : EReal)) (hW : ∀ i, ∃ r : ℝ, W i = (r : EReal)) :
    arrK X T W D = arrR X T W D := by
  funext i
  exact PiK_eq_PiR X T W D hX hT hW (i 0).val (i 0).isLt

end Cert.Spec

end
-- ==== Proof.Finite.lean ====
/-
  From "every float input is finite" to "every entry is a real number".

  The printed predicate is the conjunction of three statements of one form: over all indices of an array x, the absolute
  value |x i| = max (x i) (-(x i)) lies strictly below the value of the pattern 0x7F800000, which is +∞. The conjunction
  being true gives each of the three; a conjunction over all indices being true gives the comparison at each index; and
  an extended real whose absolute value lies strictly below +∞ is neither −∞ nor +∞, hence a real number.
-/
import proofs.«420226_j14431090115064_2_alg».proof.Pre_finite_inputs
import proofs.«420226_j14431090115064_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

namespace Cert.Finite

open Idealize.ShloMosaic

/-- The pattern 0x7F800000 (exponent all ones, significand zero, sign clear) denotes +∞. -/
theorem inf_eq_top : Ideal.ofBits .f32 0x7F800000#32 = (⊤ : EReal) := by
  simp [Ideal.ofBits, Ideal.ieee]

/-- An extended real x with max x (−x) < +∞ is a real number: at −∞ the maximum is −(−∞) = +∞, at +∞ it is +∞. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- The scalar shape has one index. -/
instance scalar_idx_subsingleton : Subsingleton Cert.Pre_finite_inputs.S_.Idx := ⟨fun a b => funext fun d => d.elim0⟩

/-- One conjunct, at one index: the comparison |x i| < (the scalar +∞ spread over the array) being true makes x i real. -/
theorem real_of_lt_inf {s : Shape} (hb : Cert.Pre_finite_inputs.S_.BroadcastsInDim s (![] : Fin 0 → Fin s.rank))
    (x : FVec Ideal s .f32) (i : s.Idx)
    (h : cmpf .olt (Host.absf x)
          (broadcastInDim s ![] hb (constant (F := Ideal) Cert.Pre_finite_inputs.S_ .f32 0x7F800000#32)) i = 1#1) :
    ∃ r : ℝ, x i = (r : EReal) := by
  apply real_of_abs_lt_top
  rw [← inf_eq_top]
  exact h

theorem real_of_pre [Cert.Pre_finite_inputs.Facts]
    (X T : FVec Ideal Cert.Pre_finite_inputs.S2000000x5 .f32) (W : FVec Ideal Cert.Pre_finite_inputs.S2000000 .f32)
    (D : IVec Cert.Pre_finite_inputs.S2000000 32)
    (h : Cert.Pre_finite_inputs.fn (F := Ideal) X T W D = fun _ => 1#1) :
    (∀ i, ∃ r : ℝ, X i = (r : EReal)) ∧ (∀ i, ∃ r : ℝ, T i = (r : EReal)) ∧ (∀ i, ∃ r : ℝ, W i = (r : EReal)) := by
  have h0 := congrFun h ValueIdx.ix0
  dsimp only [Cert.Pre_finite_inputs.fn] at h0
  obtain ⟨hXT, hW⟩ := IntOp.andi_eq_one.1 h0
  obtain ⟨hX, hT⟩ := IntOp.andi_eq_one.1 hXT
  exact ⟨fun i => real_of_lt_inf _ X i (Host.reduce_andi_all _ _ _ _ _ hX i),
    fun i => real_of_lt_inf _ T i (Host.reduce_andi_all _ _ _ _ _ hT i),
    fun i => real_of_lt_inf _ W i (Host.reduce_andi_all _ _ _ _ _ hW i)⟩

end Cert.Finite
-- ==== Proof.lean ====
/-
  The certificate of the per-day weighted sum kernel against its reference.

  Both programs compute, for each of 250 days k, the sum over all (sample row, column) pairs whose paired day is k of
  weight · target · σ(12 · input), and then one scalar from those 250 totals by the same formula. The kernel walks the
  rows in 500 stretches of a thousand, pairing position 4n + j of the weights and days with column j of the four rows
  q·500000 + n, and adds the four rows' products before multiplying by the weight; the reference flattens the samples,
  tiles the weights and days four times and scatters every product onto its day. With f = 4·(q·500000 + n) + j the flat
  index's tiled position is 4n + j, so the two sums have the same terms, regrouped; distributing the weight over the
  four-row sum is where the precondition (every float input a real number) is used. Days outside 0 … 249 are dropped by
  both: the kernel compares against the lanes 0 … 255 and keeps the first 250, the scatter drops updates that land
  outside its operand.
-/
import proofs.«420226_j14431090115064_2_alg».proof.Defs
import proofs.«420226_j14431090115064_2_alg».proof.Proof.Gen.Kernel
import proofs.«420226_j14431090115064_2_alg».proof.Proof.Gen.Kernel.Skeleton
import proofs.«420226_j14431090115064_2_alg».proof.Proof.Gen.Kernel.Launch
import proofs.«420226_j14431090115064_2_alg».proof.Proof.Gen.Kernel.Points
import proofs.«420226_j14431090115064_2_alg».proof.Proof.Gen.Kernel.Frame
import proofs.«420226_j14431090115064_2_alg».proof.Proof.Gen.KernelIdeal
import proofs.«420226_j14431090115064_2_alg».proof.Proof.Gen.KernelIdeal.Skeleton
import proofs.«420226_j14431090115064_2_alg».proof.Proof.Gen.KernelIdeal.Launch
import proofs.«420226_j14431090115064_2_alg».proof.Proof.Gen.KernelIdeal.Points
import proofs.«420226_j14431090115064_2_alg».proof.Proof.Gen.KernelIdeal.Frame
import proofs.«420226_j14431090115064_2_alg».proof.Proof.Gen.ReferenceIdeal
import proofs.«420226_j14431090115064_2_alg».proof.Proof.Gen.Pre_finite_inputs
import proofs.«420226_j14431090115064_2_alg».proof.Proof.KerRun
import proofs.«420226_j14431090115064_2_alg».proof.Proof.RefRun
import proofs.«420226_j14431090115064_2_alg».proof.Proof.SpecLaw
import proofs.«420226_j14431090115064_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- And the reference: its run with the result forgotten. -/
theorem frame_ri : Cert.frame_ReferenceIdeal := fun m ρ _ =>
  (θ_run Cert.ReferenceIdeal.defs _ _).mono (fun _ h c => (h c).2) (Cert.ReferenceIdeal.RefRun.run m ρ)

/-- The idealization rewrote nothing. -/
theorem preserves : Cert.preserves_Kernel_KernelIdeal := trivial

/-- From memories agreeing on the arguments the kernel ends at the final formula of the grouped day totals and the
    reference at the same formula of the flat day totals; for real-valued inputs the totals are equal day by day. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.RefRun.run m' ρ')
  obtain ⟨hX, hT, hW⟩ := Cert.Finite.real_of_pre _ _ _ _ (hpre c)
  rw [(hagree c).1, (hagree c).2.1, (hagree c).2.2.1, (hagree c).2.2.2, Cert.ReferenceIdeal.RefTerm.out_eq]
  exact congrArg Cert.Spec.tail (Cert.Spec.arrK_eq_arrR _ _ _ _ hX hT hW).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
